-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S512x1024 : Shape := ⟨2, ![512, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part6 {F : FTy → Type} [FloatOps F] (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  main_v103

def fn_part5 {F : FTy → Type} [FloatOps F] (main_arg18 : FVec F S512 .f32) (main_arg19 : FVec F S512x1024 .f32) (main_arg20 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x1024 .f32 := Host.absf main_arg19
  let main_cst_36 : FVec F S_ .f32 := constant S_ .f32 0x7F800000#32
  let main_v95 : FVec F S512x1024 .f32 := broadcastInDim S512x1024 ![] bcast_S_S512x1024 main_cst_36
  let main_v96 : IVec S512x1024 1 := cmpf .olt main_v94 main_v95
  let main_c_37 : IVec S_ 1 := constantI S_ 1 1#1
  let main_v97 : IVec S_ 1 := (fun x v => Host.reduce IntOp.andi x v reducesTo_S512x1024_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_v98 main_v101 main_c_39

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x512 : Shape := ⟨2, ![16384, 512]⟩
abbrev S512x512 : Shape := ⟨2, ![512, 512]⟩
abbrev S512 : Shape := ⟨1, ![512]⟩
abbrev S512x1024 : Shape := ⟨2, ![512, 1024]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x512 : Shape := ⟨2, ![1, 512]⟩
abbrev S1024x512 : Shape := ⟨2, ![1024, 512]⟩
abbrev S1024x2048 : Shape := ⟨2, ![1024, 2048]⟩

abbrev nBuf : Space → Nat
  | .hbm => 40
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x1024, .f32⟩
  | .hbm, ⟨20, _⟩ => ⟨S512, .f32⟩
  | .hbm, ⟨21, _⟩ => ⟨S2048x512, .f32⟩
  | .hbm, ⟨22, _⟩ => ⟨S2048, .f32⟩
  | .hbm, ⟨23, _⟩ => ⟨S2048x512, .f32⟩
  | .hbm, ⟨24, _⟩ => ⟨S2048, .f32⟩
  | .hbm, ⟨25, _⟩ => ⟨S512x2048, .f32⟩
  | .hbm, ⟨26, _⟩ => ⟨S512x2048, .bf16⟩
  | .hbm, ⟨27, _⟩ => ⟨S512x2048, .f32⟩
  | .hbm, ⟨28, _⟩ => ⟨S512x2048, .bf16⟩
  | .hbm, ⟨29, _⟩ => ⟨S1x2048, .f32⟩
  | .hbm, ⟨30, _⟩ => ⟨S1x2048, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S512x512, .f32⟩
  | .hbm, ⟨36, _⟩ => ⟨S512x512, .bf16⟩
  | .hbm, ⟨37, _⟩ => ⟨S1x512, .f32⟩
  | .hbm, ⟨38, _⟩ => ⟨S16384x512, .f32⟩
  | .hbm, ⟨39, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bitsLt_bf16_f32 : FTy.bits .bf16 < FTy.bits .f32
  shapeCasts_S2048_S1x2048 : S2048.ShapeCasts S1x2048
  slices_S512x1024_S512x512_0_0 : S512x1024.Slices ![0, 0] S512x512
  slices_S512x1024_S512x512_0_512 : S512x1024.Slices ![0, 512] S512x512
  transposes_S512x512_S512x512_1_0 : S512x512.Transposes [1, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S1024x2048_o0_0_S1024x512 : S1024x2048.Slices ![0, 0] S1024x512
  slices_S1024x2048_o0_512_S1024x512 : S1024x2048.Slices ![0, 512] S1024x512
  slices_S1024x2048_o0_1024_S1024x512 : S1024x2048.Slices ![0, 1024] S1024x512
  slices_S1024x2048_o0_1536_S1024x512 : S1024x2048.Slices ![0, 1536] S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x2048_S1024x2048_1_0_0_1_n_n_wf : DotDims.WF S1024x512 S512x2048 S1024x2048 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S16384x512.size a
  hwx0_10 : ∀ i : grid0.Coords, EltTy.bits .f32 = 32 ∨ (Rect.block (s := S16384x512) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v17_1) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x1024 : Shape := ⟨2, ![512, 1024]⟩
abbrev S2048x512 : Shape := ⟨2, ![2048, 512]⟩
abbrev S2048 : Shape := ⟨1, ![2048]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩
abbrev S1x512 : Shape := ⟨2, ![1, 512]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x1024, .f32⟩
  | .hbm, ⟨20, _⟩ => ⟨S512, .f32⟩
  | .hbm, ⟨21, _⟩ => ⟨S2048x512, .f32⟩
  | .hbm, ⟨22, _⟩ => ⟨S2048, .f32⟩
  | .hbm, ⟨23, _⟩ => ⟨S2048x512, .f32⟩
  | .hbm, ⟨24, _⟩ => ⟨S2048, .f32⟩
  | .hbm, ⟨25, _⟩ => ⟨S512x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S512x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S16384x512, .f32⟩
  | .hbm, ⟨72, _⟩ => ⟨S512x512, .f32⟩
  | .hbm, ⟨73, _⟩ => ⟨S16384x512, .f32⟩
  | .hbm, ⟨74, _⟩ => ⟨S16384x512, .f32⟩
  | .hbm, ⟨75, _⟩ => ⟨S1x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S512x2048_S16384x2048_1_0_0_1_n_n_wf : DotDims.WF S16384x512 S512x2048 S16384x2048 [1] [0] [0] [1] [] []
  dot_S16384x512_S512x512_S16384x512_1_0_0_1_n_n_wf : DotDims.WF S16384x512 S512x512 S16384x512 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.WordEntry.lean ====
/-
  The program up to its one launch, for the word-level kernel.

  Seventeen host operations come before the launch: they stack the four gates' weights and biases, transpose and narrow
  the stacked weights, reshape the biases into rows, and cut the exponential gate's weight into its two halves. None
  of them writes an argument array, so the launch finds every argument as it was given; what it finds in every
  buffer is the fold of those operations over the initial memory (`V`). A window's block at a grid point is read off
  that (`iblk`); an input window's staging buffer holds its block at every point, whether the pipeline fetched it
  there or the block index did not move (`before0_W_of`). Last, the frame statement follows from any run whose final
  state has the windows' arrays at the proof data's contents and every other buffer as the launch found it (`frame_of`).
-/
import proofs.«140445_j76390288327651_1_alg».proof.Proof.Gen.Kernel.Launch
import proofs.«140445_j76390288327651_1_alg».proof.Proof.Gen.Kernel.Skeleton
import proofs.«140445_j76390288327651_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- Core `c`'s buffers when the launch is reached: the host operations applied, in order, to the initial memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The seventeen buffers the host operations write. -/
abbrev hostResults : List (Ref sig .tc) :=
  [main_v0, main_v1, main_v2, main_v3, main_v4, main_v5, main_v6, main_v7, main_v8, main_v9, main_v10, main_v11,
    main_v12, main_v13, main_v14, main_v15, main_v16]

/-- A buffer that is none of the host operations' results is found by the launch as it was given: each operation
    writes its one result and nothing else. -/
theorem V_kept (c : Dev nD) (b : Ref sig .tc) (hb : ∀ v ∈ hostResults, b ≠ v) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (hb _ (by decide))))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point: fetched there, or left from the point
    before because the block index did not move. One statement per input window, for any proof data whose array is the
    entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run -/

/-- The three arguments the pipeline stages are inputs, so their final contents are the entry contents. -/
theorem staged_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (V_kept m c main_arg0 (by decide)))),
    ((h c).1 1).trans (((dats 0 c).arrAt_in 1 rfl _).trans ((hA c 1).trans (V_kept m c main_arg1 (by decide)))),
    ((h c).1 2).trans (((dats 0 c).arrAt_in 2 rfl _).trans ((hA c 2).trans (V_kept m c main_arg2 (by decide))))⟩

/-- An unscoped buffer that is no window's array and no host operation's result bypasses the launch and ends as it
    was given. -/
theorem bypass_kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) (b : Ref sig .tc)
    (hs : b.isScoped = false) (ha : ∀ w, (spec0 w).arr.view.ref ≠ b) (hb : ∀ v ∈ hostResults, b ≠ v) :
    r.2.mem ((c.tc : Thread nD τ).loc b) = m ((c.tc : Thread nD τ).loc b) :=
  ((h c).2 b (Pipeline.mem_restRefs_of b hs ha)).trans (V_kept m c b hb)

/-- The twenty-one arguments end as they were given. -/
abbrev ArgsKept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)

/-- A final state with every window's array at the proof data's final contents and every other unscoped buffer as the
    launch found it has the twenty-one arguments unchanged. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) : ArgsKept m r c :=
  have hb := fun b hs ha hb => bypass_kept m dats r h c b hs ha hb
  ⟨(staged_kept m dats hA r h c).1, (staged_kept m dats hA r h c).2.1, (staged_kept m dats hA r h c).2.2,
    hb main_arg3 (by decide) (by decide) (by decide), hb main_arg4 (by decide) (by decide) (by decide),
    hb main_arg5 (by decide) (by decide) (by decide), hb main_arg6 (by decide) (by decide) (by decide),
    hb main_arg7 (by decide) (by decide) (by decide), hb main_arg8 (by decide) (by decide) (by decide),
    hb main_arg9 (by decide) (by decide) (by decide), hb main_arg10 (by decide) (by decide) (by decide),
    hb main_arg11 (by decide) (by decide) (by decide), hb main_arg12 (by decide) (by decide) (by decide),
    hb main_arg13 (by decide) (by decide) (by decide), hb main_arg14 (by decide) (by decide) (by decide),
    hb main_arg15 (by decide) (by decide) (by decide), hb main_arg16 (by decide) (by decide) (by decide),
    hb main_arg17 (by decide) (by decide) (by decide), hb main_arg18 (by decide) (by decide) (by decide),
    hb main_arg19 (by decide) (by decide) (by decide), hb main_arg20 (by decide) (by decide) (by decide)⟩

/-- So a run to such final states is the frame statement's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, ArgsKept m r c) :=
  (θ_run defs _ _).mono (fun r h c => args_kept m dats hA r h c) h

end Cert.Kernel.Hand

end
-- ==== Proof.WordBody.lean ====
/-
  The kernel body at one grid point, for the word-level kernel.

  The body loads its ten input blocks whole, computes, and stores each of its two output blocks whole by one store.
  So what an output's staging buffer holds afterwards is a function of the input blocks alone: the store's value laid
  over the whole block. The hidden state's block (window 10) takes the value computed from the output gate, the new
  cell state, the two products of the exponential gate and that gate's bias row; the cell state's block (window 11)
  takes the new cell state. The triple says: from the input buffers at given contents and the output buffers at any,
  the body runs to the end with the inputs unchanged and the outputs at those functions.
-/
import proofs.«140445_j76390288327651_1_alg».proof.Proof.Gen.Kernel.Launch
import proofs.«140445_j76390288327651_1_alg».proof.Proof.Gen.Kernel.Skeleton
import proofs.«140445_j76390288327651_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

/-- A batch tile's block, whole. -/
abbrev rTile : Rect S1024x512 := Rect.unit (s := S1024x512) ![0, 0] S1024x512.size inb_S1024x512_S1024x512_0_0
/-- The stacked, transposed gate weights, whole. -/
abbrev rGateW : Rect S512x2048 := Rect.unit (s := S512x2048) ![0, 0] S512x2048.size inb_S512x2048_S512x2048_0_0
/-- The stacked gate biases as one row, whole. -/
abbrev rGateB : Rect S1x2048 := Rect.unit (s := S1x2048) ![0, 0] S1x2048.size inb_S1x2048_S1x2048_0_0
/-- One transposed half of the exponential gate's weight, whole. -/
abbrev rExpW : Rect S512x512 := Rect.unit (s := S512x512) ![0, 0] S512x512.size inb_S512x512_S512x512_0_0
/-- The exponential gate's bias as one row, whole. -/
abbrev rExpB : Rect S1x512 := Rect.unit (s := S1x512) ![0, 0] S1x512.size inb_S1x512_S1x512_0_0

/-! ## What the body leaves in each output window's buffer -/

/-- The new cell state of a tile, from the blocks of `x`, `h`, `c`, the two stacked weights and the two bias rows. -/
def cellTile (x0 x1 x2 : Vec F S1024x512 .f32) (x3 x4 : Vec F S512x2048 .bf16) (x5 x6 : Vec F S1x2048 .f32) : FVec F S1024x512 .f32 :=
  k0_pay6 (View.ld x0 rTile) (View.ld x1 rTile) (View.ld x2 rTile) (View.ld x3 rGateW) (View.ld x5 rGateB) (View.ld x4 rGateW) (View.ld x6 rGateB)

/-- The new hidden state of a tile, from all ten input blocks. -/
def hiddenTile (x0 x1 x2 : Vec F S1024x512 .f32) (x3 x4 : Vec F S512x2048 .bf16) (x5 x6 : Vec F S1x2048 .f32)
    (x7 x8 : Vec F S512x512 .bf16) (x9 : Vec F S1x512 .f32) : FVec F S1024x512 .f32 :=
  k0_pay1 (k0_pay5 (View.ld x0 rTile) (View.ld x1 rTile) (View.ld x3 rGateW) (View.ld x5 rGateB) (View.ld x4 rGateW) (View.ld x6 rGateB))
    (cellTile x0 x1 x2 x3 x4 x5 x6)
    (k0_pay7 (View.ld x0 rTile) (View.ld x7 rExpW)) (k0_pay8 (View.ld x1 rTile) (View.ld x8 rExpW)) (View.ld x9 rExpB)

/-- Window 10's staging buffer after the body: its one store, over the whole block. -/
def out0_10 (x0 x1 x2 : Vec F S1024x512 .f32) (x3 x4 : Vec F S512x2048 .bf16) (x5 x6 : Vec F S1x2048 .f32)
    (x7 x8 : Vec F S512x512 .bf16) (x9 : Vec F S1x512 .f32) : Vec F S1024x512 .f32 :=
  View.canon [⟨rTile, hiddenTile x0 x1 x2 x3 x4 x5 x6 x7 x8 x9⟩]

/-- Window 11's staging buffer after the body: its one store, over the whole block. -/
def out0_11 (x0 x1 x2 : Vec F S1024x512 .f32) (x3 x4 : Vec F S512x2048 .bf16) (x5 x6 : Vec F S1x2048 .f32) : Vec F S1024x512 .f32 :=
  View.canon [⟨rTile, cellTile x0 x1 x2 x3 x4 x5 x6⟩]

/-- One whole-block store covers the block. -/
theorem cover_tile (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y

/-! ## The body's triple -/

set_option maxHeartbeats 4000000 in
/-- The kernel body on whole staging memrefs, the inputs' at contents `x0 … x9` and the outputs' at anything, runs to
    the continuation holding the inputs' as they were and the outputs' at `out0_10` and `out0_11` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S512x512 .bf16) (harg8 : arg8.IsWhole)
    (arg9 : Memref sig .tc .vmem S512x512 .bf16) (harg9 : arg9.IsWhole) (arg10 : Memref sig .tc .vmem S1x512 .f32) (harg10 : arg10.IsWhole)
    (arg11 : Memref sig .tc .vmem S1024x512 .f32) (harg11 : arg11.IsWhole) (arg12 : Memref sig .tc .vmem S1024x512 .f32) (harg12 : arg12.IsWhole)
    (x0 x1 x2 : Vec F S1024x512 .f32) (x3 x4 : Vec F S512x2048 .bf16) (x5 x6 : Vec F S1x2048 .f32)
    (x7 x8 : Vec F S512x512 .bf16) (x9 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out0_10 x0 x1 x2 x3 x4 x5 x6 x7 x8 x9)
            ∗ owns (c : Thread nD τ) arg12 fullShare (out0_11 x0 x1 x2 x3 x4 x5 x6)) -∗ K ⟨⟩))
      ⊢ wp frame (wpE (defs₀ (F := F)) Variants.none c none) E
          (cc0__xlstm_kernel i arg1 harg1 arg2 harg2 arg3 harg3 arg4 harg4 arg5 harg5 arg6 harg6 arg7 harg7 arg8 harg8 arg9 harg9 arg10 harg10 arg11 harg11 arg12 harg12) K := by
  simp only [cc0__xlstm_kernel_eq_skeleton]; unfold cc0__xlstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_tile _)
  iexists _; isplitr
  swap; · iexact H11
  ipureintro
  exact View.read_writes_eq_canon _ _ _ (cover_tile _)

end Cert.Kernel.Hand

end
-- ==== Proof.WordRun.lean ====
/-
  The run of the word-level kernel's program, and its frame.

  The proof data of the one pipeline: every window's array is what the launch finds; after the body at a grid point
  an input's staging buffer still holds its block and an output's holds the body's value on the ten input blocks;
  the body needs nothing else. The body's triple then discharges the pipeline's obligation at every point, and the
  library's launch theorem gives the run: every weakly fair execution ends, with each window's array at the contents
  the proof data computes and every other buffer untouched. The frame statement follows.
-/
import proofs.«140445_j76390288327651_1_alg».proof.Proof.WordEntry
import proofs.«140445_j76390288327651_1_alg».proof.Proof.WordBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The hidden state's block after the body at point `t`, from the ten input blocks there. -/
abbrev hiddenBlk (c : Dev nD) (t : Fin cfg0.N) : Vec F S1024x512 .f32 :=
  out0_10 (iblk m c 0 t) (iblk m c 1 t) (iblk m c 2 t) (iblk m c 3 t) (iblk m c 4 t) (iblk m c 5 t) (iblk m c 6 t)
    (iblk m c 7 t) (iblk m c 8 t) (iblk m c 9 t)

/-- The cell state's block after the body at point `t`, from the seven input blocks it depends on. -/
abbrev cellBlk (c : Dev nD) (t : Fin cfg0.N) : Vec F S1024x512 .f32 :=
  out0_11 (iblk m c 0 t) (iblk m c 1 t) (iblk m c 2 t) (iblk m c 3 t) (iblk m c 4 t) (iblk m c 5 t) (iblk m c 6 t)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => hiddenBlk m c t
    | ⟨11, _⟩ => cellBlk m c t
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = hiddenBlk m c t := by dsimp only [dats]
theorem after0_11 (c : Dev nD) (t : Fin cfg0.N) : (dats m 0 c).after 11 t = cellBlk m c t := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every window's array at what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program, at any float instance. -/
theorem frame : θ_run defs (onTc (τ := τ) (main (F := F))) ⟨m, fun _ => 0, ρ⟩ (fun r => ∀ c : Dev nD, ArgsKept m r c) :=
  frame_of m ρ (dats m) (A_eq m) (run_main m ρ)

end Cert.Kernel.Hand

end
-- ==== Proof.IdealEntry.lean ====
/-
  The program up to its one launch, for the idealized kernel.

  Seventeen host operations come before the launch: they stack the four gates' weights and biases, transpose and narrow
  the stacked weights, reshape the biases into rows, and cut the exponential gate's weight into its two halves. None
  of them writes an argument array, so the launch finds every argument as it was given; what it finds in every
  buffer is the fold of those operations over the initial memory (`V`). A window's block at a grid point is read off
  that (`iblk`); an input window's staging buffer holds its block at every point, whether the pipeline fetched it
  there or the block index did not move (`before0_W_of`). Last, the frame statement follows from any run whose final
  state has the windows' arrays at the proof data's contents and every other buffer as the launch found it (`frame_of`).
-/
import proofs.«140445_j76390288327651_1_alg».proof.Proof.Gen.KernelIdeal.Launch
import proofs.«140445_j76390288327651_1_alg».proof.Proof.Gen.KernelIdeal.Skeleton
import proofs.«140445_j76390288327651_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- Core `c`'s buffers when the launch is reached: the host operations applied, in order, to the initial memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The seventeen buffers the host operations write. -/
abbrev hostResults : List (Ref sig .tc) :=
  [main_v0, main_v1, main_v2, main_v3, main_v4, main_v5, main_v6, main_v7, main_v8, main_v9, main_v10, main_v11,
    main_v12, main_v13, main_v14, main_v15, main_v16]

/-- A buffer that is none of the host operations' results is found by the launch as it was given: each operation
    writes its one result and nothing else. -/
theorem V_kept (c : Dev nD) (b : Ref sig .tc) (hb : ∀ v ∈ hostResults, b ≠ v) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (hb _ (by decide))))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point: fetched there, or left from the point
    before because the block index did not move. One statement per input window, for any proof data whose array is the
    entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run -/

/-- The three arguments the pipeline stages are inputs, so their final contents are the entry contents. -/
theorem staged_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (V_kept m c main_arg0 (by decide)))),
    ((h c).1 1).trans (((dats 0 c).arrAt_in 1 rfl _).trans ((hA c 1).trans (V_kept m c main_arg1 (by decide)))),
    ((h c).1 2).trans (((dats 0 c).arrAt_in 2 rfl _).trans ((hA c 2).trans (V_kept m c main_arg2 (by decide))))⟩

/-- An unscoped buffer that is no window's array and no host operation's result bypasses the launch and ends as it
    was given. -/
theorem bypass_kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) (b : Ref sig .tc)
    (hs : b.isScoped = false) (ha : ∀ w, (spec0 w).arr.view.ref ≠ b) (hb : ∀ v ∈ hostResults, b ≠ v) :
    r.2.mem ((c.tc : Thread nD τ).loc b) = m ((c.tc : Thread nD τ).loc b) :=
  ((h c).2 b (Pipeline.mem_restRefs_of b hs ha)).trans (V_kept m c b hb)

/-- The twenty-one arguments end as they were given. -/
abbrev ArgsKept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)

/-- A final state with every window's array at the proof data's final contents and every other unscoped buffer as the
    launch found it has the twenty-one arguments unchanged. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) : ArgsKept m r c :=
  have hb := fun b hs ha hb => bypass_kept m dats r h c b hs ha hb
  ⟨(staged_kept m dats hA r h c).1, (staged_kept m dats hA r h c).2.1, (staged_kept m dats hA r h c).2.2,
    hb main_arg3 (by decide) (by decide) (by decide), hb main_arg4 (by decide) (by decide) (by decide),
    hb main_arg5 (by decide) (by decide) (by decide), hb main_arg6 (by decide) (by decide) (by decide),
    hb main_arg7 (by decide) (by decide) (by decide), hb main_arg8 (by decide) (by decide) (by decide),
    hb main_arg9 (by decide) (by decide) (by decide), hb main_arg10 (by decide) (by decide) (by decide),
    hb main_arg11 (by decide) (by decide) (by decide), hb main_arg12 (by decide) (by decide) (by decide),
    hb main_arg13 (by decide) (by decide) (by decide), hb main_arg14 (by decide) (by decide) (by decide),
    hb main_arg15 (by decide) (by decide) (by decide), hb main_arg16 (by decide) (by decide) (by decide),
    hb main_arg17 (by decide) (by decide) (by decide), hb main_arg18 (by decide) (by decide) (by decide),
    hb main_arg19 (by decide) (by decide) (by decide), hb main_arg20 (by decide) (by decide) (by decide)⟩

/-- So a run to such final states is the frame statement's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, ArgsKept m r c) :=
  (θ_run defs _ _).mono (fun r h c => args_kept m dats hA r h c) h

end Cert.KernelIdeal.Hand

end
-- ==== Proof.IdealBody.lean ====
/-
  The kernel body at one grid point, for the idealized kernel.

  The body loads its ten input blocks whole, computes, and stores each of its two output blocks whole by one store.
  So what an output's staging buffer holds afterwards is a function of the input blocks alone: the store's value laid
  over the whole block. The hidden state's block (window 10) takes the value computed from the output gate, the new
  cell state, the two products of the exponential gate and that gate's bias row; the cell state's block (window 11)
  takes the new cell state. The triple says: from the input buffers at given contents and the output buffers at any,
  the body runs to the end with the inputs unchanged and the outputs at those functions.
-/
import proofs.«140445_j76390288327651_1_alg».proof.Proof.Gen.KernelIdeal.Launch
import proofs.«140445_j76390288327651_1_alg».proof.Proof.Gen.KernelIdeal.Skeleton
import proofs.«140445_j76390288327651_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

/-- A batch tile's block, whole. -/
abbrev rTile : Rect S1024x512 := Rect.unit (s := S1024x512) ![0, 0] S1024x512.size inb_S1024x512_S1024x512_0_0
/-- The stacked, transposed gate weights, whole. -/
abbrev rGateW : Rect S512x2048 := Rect.unit (s := S512x2048) ![0, 0] S512x2048.size inb_S512x2048_S512x2048_0_0
/-- The stacked gate biases as one row, whole. -/
abbrev rGateB : Rect S1x2048 := Rect.unit (s := S1x2048) ![0, 0] S1x2048.size inb_S1x2048_S1x2048_0_0
/-- One transposed half of the exponential gate's weight, whole. -/
abbrev rExpW : Rect S512x512 := Rect.unit (s := S512x512) ![0, 0] S512x512.size inb_S512x512_S512x512_0_0
/-- The exponential gate's bias as one row, whole. -/
abbrev rExpB : Rect S1x512 := Rect.unit (s := S1x512) ![0, 0] S1x512.size inb_S1x512_S1x512_0_0

/-! ## What the body leaves in each output window's buffer -/

/-- The new cell state of a tile, from the blocks of `x`, `h`, `c`, the two stacked weights and the two bias rows. -/
def cellTile (x0 x1 x2 : Vec F S1024x512 .f32) (x3 x4 : Vec F S512x2048 .bf16) (x5 x6 : Vec F S1x2048 .f32) : FVec F S1024x512 .f32 :=
  k0_pay6 (View.ld x0 rTile) (View.ld x1 rTile) (View.ld x2 rTile) (View.ld x3 rGateW) (View.ld x5 rGateB) (View.ld x4 rGateW) (View.ld x6 rGateB)

/-- The new hidden state of a tile, from all ten input blocks. -/
def hiddenTile (x0 x1 x2 : Vec F S1024x512 .f32) (x3 x4 : Vec F S512x2048 .bf16) (x5 x6 : Vec F S1x2048 .f32)
    (x7 x8 : Vec F S512x512 .bf16) (x9 : Vec F S1x512 .f32) : FVec F S1024x512 .f32 :=
  k0_pay1 (k0_pay5 (View.ld x0 rTile) (View.ld x1 rTile) (View.ld x3 rGateW) (View.ld x5 rGateB) (View.ld x4 rGateW) (View.ld x6 rGateB))
    (cellTile x0 x1 x2 x3 x4 x5 x6)
    (k0_pay7 (View.ld x0 rTile) (View.ld x7 rExpW)) (k0_pay8 (View.ld x1 rTile) (View.ld x8 rExpW)) (View.ld x9 rExpB)

/-- Window 10's staging buffer after the body: its one store, over the whole block. -/
def out0_10 (x0 x1 x2 : Vec F S1024x512 .f32) (x3 x4 : Vec F S512x2048 .bf16) (x5 x6 : Vec F S1x2048 .f32)
    (x7 x8 : Vec F S512x512 .bf16) (x9 : Vec F S1x512 .f32) : Vec F S1024x512 .f32 :=
  View.canon [⟨rTile, hiddenTile x0 x1 x2 x3 x4 x5 x6 x7 x8 x9⟩]

/-- Window 11's staging buffer after the body: its one store, over the whole block. -/
def out0_11 (x0 x1 x2 : Vec F S1024x512 .f32) (x3 x4 : Vec F S512x2048 .bf16) (x5 x6 : Vec F S1x2048 .f32) : Vec F S1024x512 .f32 :=
  View.canon [⟨rTile, cellTile x0 x1 x2 x3 x4 x5 x6⟩]

/-- One whole-block store covers the block. -/
theorem cover_tile (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y

/-! ## The body's triple -/

set_option maxHeartbeats 4000000 in
/-- The kernel body on whole staging memrefs, the inputs' at contents `x0 … x9` and the outputs' at anything, runs to
    the continuation holding the inputs' as they were and the outputs' at `out0_10` and `out0_11` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S512x512 .bf16) (harg8 : arg8.IsWhole)
    (arg9 : Memref sig .tc .vmem S512x512 .bf16) (harg9 : arg9.IsWhole) (arg10 : Memref sig .tc .vmem S1x512 .f32) (harg10 : arg10.IsWhole)
    (arg11 : Memref sig .tc .vmem S1024x512 .f32) (harg11 : arg11.IsWhole) (arg12 : Memref sig .tc .vmem S1024x512 .f32) (harg12 : arg12.IsWhole)
    (x0 x1 x2 : Vec F S1024x512 .f32) (x3 x4 : Vec F S512x2048 .bf16) (x5 x6 : Vec F S1x2048 .f32)
    (x7 x8 : Vec F S512x512 .bf16) (x9 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out0_10 x0 x1 x2 x3 x4 x5 x6 x7 x8 x9)
            ∗ owns (c : Thread nD τ) arg12 fullShare (out0_11 x0 x1 x2 x3 x4 x5 x6)) -∗ K ⟨⟩))
      ⊢ wp frame (wpE (defs₀ (F := F)) Variants.none c none) E
          (cc0__xlstm_kernel i arg1 harg1 arg2 harg2 arg3 harg3 arg4 harg4 arg5 harg5 arg6 harg6 arg7 harg7 arg8 harg8 arg9 harg9 arg10 harg10 arg11 harg11 arg12 harg12) K := by
  simp only [cc0__xlstm_kernel_eq_skeleton]; unfold cc0__xlstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_tile _)
  iexists _; isplitr
  swap; · iexact H11
  ipureintro
  exact View.read_writes_eq_canon _ _ _ (cover_tile _)

end Cert.KernelIdeal.Hand

end
-- ==== Proof.IdealRun.lean ====
/-
  The run of the idealized kernel's program, and its frame.

  The proof data of the one pipeline: every window's array is what the launch finds; after the body at a grid point
  an input's staging buffer still holds its block and an output's holds the body's value on the ten input blocks;
  the body needs nothing else. The body's triple then discharges the pipeline's obligation at every point, and the
  library's launch theorem gives the run: every weakly fair execution ends, with each window's array at the contents
  the proof data computes and every other buffer untouched. The frame statement follows.
-/
import proofs.«140445_j76390288327651_1_alg».proof.Proof.IdealEntry
import proofs.«140445_j76390288327651_1_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The hidden state's block after the body at point `t`, from the ten input blocks there. -/
abbrev hiddenBlk (c : Dev nD) (t : Fin cfg0.N) : Vec F S1024x512 .f32 :=
  out0_10 (iblk m c 0 t) (iblk m c 1 t) (iblk m c 2 t) (iblk m c 3 t) (iblk m c 4 t) (iblk m c 5 t) (iblk m c 6 t)
    (iblk m c 7 t) (iblk m c 8 t) (iblk m c 9 t)

/-- The cell state's block after the body at point `t`, from the seven input blocks it depends on. -/
abbrev cellBlk (c : Dev nD) (t : Fin cfg0.N) : Vec F S1024x512 .f32 :=
  out0_11 (iblk m c 0 t) (iblk m c 1 t) (iblk m c 2 t) (iblk m c 3 t) (iblk m c 4 t) (iblk m c 5 t) (iblk m c 6 t)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => hiddenBlk m c t
    | ⟨11, _⟩ => cellBlk m c t
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = hiddenBlk m c t := by dsimp only [dats]
theorem after0_11 (c : Dev nD) (t : Fin cfg0.N) : (dats m 0 c).after 11 t = cellBlk m c t := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every window's array at what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program, at any float instance. -/
theorem frame : θ_run defs (onTc (τ := τ) (main (F := F))) ⟨m, fun _ => 0, ρ⟩ (fun r => ∀ c : Dev nD, ArgsKept m r c) :=
  frame_of m ρ (dats m) (A_eq m) (run_main m ρ)

end Cert.KernelIdeal.Hand

end
-- ==== Proof.Spec.lean ====
/-
  The mathematics of the gated recurrent cell both programs compute, as functions of the argument arrays over the
  extended reals.

  With the four gates' weight matrices stacked row-wise into `Wx, Wh : [2048, 512]` and their biases into
  `bx, bh : [2048]`, the pre-activation of stacked column `J` on batch row `r` is
      pre r J = (∑ₖ x[r,k]·Wx[J,k] + bx[J]) + (∑ₖ h[r,k]·Wh[J,k] + bh[J]).
  Column `j` of the input, forget, candidate and output gate is stacked column `j`, `512 + j`, `1024 + j`, `1536 + j`.
  The new cell state is  c' = σ(pre_f)·c + σ(pre_i)·tanh(pre_c),  the exponential gate's argument is
      e = (∑ₖ x[r,k]·We[j,k] + ∑ₖ h[r,k]·We[j,512+k]) + be[j],
  and the new hidden state is  h' = (σ(pre_o)·tanh(c'))·exp(tanh(e)).
  The stacked arrays are left as arguments: both programs build them by the same concatenations, which are never opened.
-/
import Idealize.ShloMosaic.PureOps.Ideal
import Idealize.ShloMosaic.Lib.ValueIdx

noncomputable section

namespace Cert.CellSpec

open Idealize.ShloMosaic Idealize.ShloMosaic.ValueIdx
open scoped BigOperators

/-- batch × hidden -/
abbrev SB : Shape := ⟨2, ![16384, 512]⟩
/-- the four gates' weights stacked -/
abbrev SW : Shape := ⟨2, ![2048, 512]⟩
/-- the four gates' biases stacked -/
abbrev Sb : Shape := ⟨1, ![2048]⟩
/-- the exponential gate's weight over the joined input [x, h] -/
abbrev SE : Shape := ⟨2, ![512, 1024]⟩
/-- the exponential gate's bias -/
abbrev Se : Shape := ⟨1, ![512]⟩

/-- Stacked column of the input gate. -/
def colI (j : Fin 512) : Fin 2048 := ⟨j.val, by omega⟩
/-- Stacked column of the forget gate. -/
def colF (j : Fin 512) : Fin 2048 := ⟨512 + j.val, by omega⟩
/-- Stacked column of the candidate. -/
def colC (j : Fin 512) : Fin 2048 := ⟨1024 + j.val, by omega⟩
/-- Stacked column of the output gate. -/
def colO (j : Fin 512) : Fin 2048 := ⟨1536 + j.val, by omega⟩
/-- Column `k` of the exponential gate's weight that multiplies `x`. -/
def colX (k : Fin 512) : Fin 1024 := ⟨k.val, by omega⟩
/-- Column of the exponential gate's weight that multiplies `h`. -/
def colH (k : Fin 512) : Fin 1024 := ⟨512 + k.val, by omega⟩

section
variable (x h c : FVec Ideal SB .f32) (Wx Wh : FVec Ideal SW .f32) (bx bh : FVec Ideal Sb .f32)
  (We : FVec Ideal SE .f32) (be : FVec Ideal Se .f32)

/-- A stacked gate column's pre-activation on a batch row: the two affine layers, added. -/
def pre (r : Fin 16384) (J : Fin 2048) : EReal :=
  ((∑ k : Fin 512, x (ix2 r k) * Wx (ix2 J k)) + bx (ix1 J))
    + ((∑ k : Fin 512, h (ix2 r k) * Wh (ix2 J k)) + bh (ix1 J))

/-- The new cell state. -/
def cellAt (r : Fin 16384) (j : Fin 512) : EReal :=
  Ideal.logistic (pre x h Wx Wh bx bh r (colF j)) * c (ix2 r j)
    + Ideal.logistic (pre x h Wx Wh bx bh r (colI j)) * Ideal.tanh (pre x h Wx Wh bx bh r (colC j))

/-- The exponential gate's argument. -/
def expArg (r : Fin 16384) (j : Fin 512) : EReal :=
  ((∑ k : Fin 512, x (ix2 r k) * We (ix2 j (colX k))) + (∑ k : Fin 512, h (ix2 r k) * We (ix2 j (colH k))))
    + be (ix1 j)

/-- The new hidden state. -/
def hiddenAt (r : Fin 16384) (j : Fin 512) : EReal :=
  (Ideal.logistic (pre x h Wx Wh bx bh r (colO j)) * Ideal.tanh (cellAt x h c Wx Wh bx bh r j))
    * Ideal.exp (Ideal.tanh (expArg x h We be r j))

/-- The new cell state, as an array. -/
def cellOut : FVec Ideal SB .f32 := fun i => cellAt x h c Wx Wh bx bh (i 0) (i 1)

/-- The new hidden state, as an array. -/
def hiddenOut : FVec Ideal SB .f32 := fun i => hiddenAt x h c Wx Wh bx bh We be (i 0) (i 1)

theorem cellOut_ix2 (r : Fin 16384) (j : Fin 512) :
    cellOut x h c Wx Wh bx bh (ix2 r j) = cellAt x h c Wx Wh bx bh r j := rfl

theorem hiddenOut_ix2 (r : Fin 16384) (j : Fin 512) :
    hiddenOut x h c Wx Wh bx bh We be (ix2 r j) = hiddenAt x h c Wx Wh bx bh We be r j := rfl

/-- The kernel adds the four terms of a pre-activation left to right; addition on the extended reals is associative. -/
theorem pre_leftAssoc (r : Fin 16384) (J : Fin 2048) :
    (((∑ k : Fin 512, x (ix2 r k) * Wx (ix2 J k)) + bx (ix1 J)) + (∑ k : Fin 512, h (ix2 r k) * Wh (ix2 J k))) + bh (ix1 J)
      = pre x h Wx Wh bx bh r J := by
  unfold pre; rw [add_assoc]

end

end Cert.CellSpec

end
-- ==== Proof.TileValue.lean ====
/-
  The idealized kernel's arithmetic on one batch tile, read at an entry.
-/
import proofs.«140445_j76390288327651_1_alg».proof.Proof.Gen.KernelIdeal.Skeleton
import proofs.«140445_j76390288327651_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Cert.CellSpec
open Idealize.ShloMosaic Idealize.ShloMosaic.ValueIdx
open scoped BigOperators

variable (x h c : FVec Ideal SB .f32) (Wx Wh : FVec Ideal SW .f32) (bx bh : FVec Ideal Sb .f32)
  (We : FVec Ideal SE .f32) (be : FVec Ideal Se .f32)

/-! ## The wide product's operand indices, axis by axis -/

theorem lhs_wide_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_wide_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_wide_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_wide_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The wide product into a zero accumulator, read at tile entry (p, J): the sum over the contracted axis. -/
theorem matmul_wide_apply (a : FVec Ideal S1024x512 .bf16) (b : FVec Ideal S512x2048 .bf16) (p : Fin 1024) (J : Fin 2048) :
    matmul dot_S1024x512_S512x2048_S1024x2048_1_0_0_1_n_n none a b (constant S1024x2048 .f32 0x00000000#32) (ix2 p J)
      = ∑ k : Fin 512, a (ix2 p k) * b (ix2 k J) := by
  refine (Ideal.matmul_constant_zero_apply dot_S1024x512_S512x2048_S1024x2048_1_0_0_1_n_n none a b (ix2 p J)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p J) ((contrEquiv1 dot_S1024x512_S512x2048_S1024x2048_1_0_0_1_n_n 512 rfl rfl).symm k) = ix2 p k := funext fun a => Fin.ext (by
    match a with
    | ⟨0, _⟩ => exact lhs_wide_0 _ _
    | ⟨1, _⟩ => exact (lhs_wide_1 _ _).trans hk)
  have er : dot_S1024x512_S512x2048_S1024x2048_1_0_0_1_n_n.rhsIdx (ix2 p J) ((contrEquiv1 dot_S1024x512_S512x2048_S1024x2048_1_0_0_1_n_n 512 rfl rfl).symm k) = ix2 k J := funext fun a => Fin.ext (by
    match a with
    | ⟨0, _⟩ => exact (rhs_wide_0 _ _).trans hk
    | ⟨1, _⟩ => exact rhs_wide_1 _ _)
  rw [el, er]

/-! ## The narrow product's operand indices, axis by axis -/

theorem lhs_narrow_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_narrow_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_narrow_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_narrow_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The narrow product into a zero accumulator, read at tile entry (p, q): the sum over the contracted axis. -/
theorem matmul_narrow_apply (a : FVec Ideal S1024x512 .bf16) (b : FVec Ideal S512x512 .bf16) (p : Fin 1024) (J : Fin 512) :
    matmul dot_S1024x512_S512x512_S1024x512_1_0_0_1_n_n none a b (constant S1024x512 .f32 0x00000000#32) (ix2 p J)
      = ∑ k : Fin 512, a (ix2 p k) * b (ix2 k J) := by
  refine (Ideal.matmul_constant_zero_apply dot_S1024x512_S512x512_S1024x512_1_0_0_1_n_n none a b (ix2 p J)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p J) ((contrEquiv1 dot_S1024x512_S512x512_S1024x512_1_0_0_1_n_n 512 rfl rfl).symm k) = ix2 p k := funext fun a => Fin.ext (by
    match a with
    | ⟨0, _⟩ => exact lhs_narrow_0 _ _
    | ⟨1, _⟩ => exact (lhs_narrow_1 _ _).trans hk)
  have er : dot_S1024x512_S512x512_S1024x512_1_0_0_1_n_n.rhsIdx (ix2 p J) ((contrEquiv1 dot_S1024x512_S512x512_S1024x512_1_0_0_1_n_n 512 rfl rfl).symm k) = ix2 k J := funext fun a => Fin.ext (by
    match a with
    | ⟨0, _⟩ => exact (rhs_narrow_0 _ _).trans hk
    | ⟨1, _⟩ => exact rhs_narrow_1 _ _)
  rw [el, er]

/-! ## The layout operations, read at a tile entry -/

/-- A one-row block broadcast down the tile's rows reads its row 0 at the same column. -/
theorem bcast_wide_apply (v : FVec Ideal S1x2048 .f32) (p : Fin 1024) (J : Fin 2048) :
    broadcastTo S1024x2048 v broadcasts_S1x2048_S1024x2048 (ix2 p J) = v (ix2 (0 : Fin 1) J) :=
  broadcastTo_apply v broadcasts_S1x2048_S1024x2048 (ix2 p J) (ix2 (0 : Fin 1) J) (fun a => match a with
    | ⟨0, _⟩ => by show 0 = if (1 : Nat) = 1 then 0 else _; rw [if_pos rfl]
    | ⟨1, _⟩ => by show J.val = if (2048 : Nat) = 1 then 0 else J.val; rw [if_neg (by decide)])

/-- The same for the narrow one-row block. -/
theorem bcast_narrow_apply (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- The slice of columns 0… reads the input gate's stacked column. -/
theorem slice_I_apply (y : FVec Ideal S1024x2048 .f32) (p : Fin 1024) (q : Fin 512) :
    extractStridedSlice S1024x512 ![0, 0] y slices_S1024x2048_o0_0_S1024x512 (ix2 p q) = y (ix2 p (colI q)) :=
  extractStridedSlice_apply ![0, 0] y slices_S1024x2048_o0_0_S1024x512 (ix2 p q) (ix2 p (colI q)) (fun a => match a with
    | ⟨0, _⟩ => by show p.val = 0 + p.val; omega
    | ⟨1, _⟩ => by show q.val = 0 + q.val; omega)

/-- The slice of columns 512… reads the forget gate's stacked column. -/
theorem slice_F_apply (y : FVec Ideal S1024x2048 .f32) (p : Fin 1024) (q : Fin 512) :
    extractStridedSlice S1024x512 ![0, 512] y slices_S1024x2048_o0_512_S1024x512 (ix2 p q) = y (ix2 p (colF q)) :=
  extractStridedSlice_apply ![0, 512] y slices_S1024x2048_o0_512_S1024x512 (ix2 p q) (ix2 p (colF q)) (fun a => match a with
    | ⟨0, _⟩ => by show p.val = 0 + p.val; omega
    | ⟨1, _⟩ => by show 512 + q.val = 512 + q.val; rfl)

/-- The slice of columns 1024… reads the candidate's stacked column. -/
theorem slice_C_apply (y : FVec Ideal S1024x2048 .f32) (p : Fin 1024) (q : Fin 512) :
    extractStridedSlice S1024x512 ![0, 1024] y slices_S1024x2048_o0_1024_S1024x512 (ix2 p q) = y (ix2 p (colC q)) :=
  extractStridedSlice_apply ![0, 1024] y slices_S1024x2048_o0_1024_S1024x512 (ix2 p q) (ix2 p (colC q)) (fun a => match a with
    | ⟨0, _⟩ => by show p.val = 0 + p.val; omega
    | ⟨1, _⟩ => by show 1024 + q.val = 1024 + q.val; rfl)

/-- The slice of columns 1536… reads the output gate's stacked column. -/
theorem slice_O_apply (y : FVec Ideal S1024x2048 .f32) (p : Fin 1024) (q : Fin 512) :
    extractStridedSlice S1024x512 ![0, 1536] y slices_S1024x2048_o0_1536_S1024x512 (ix2 p q) = y (ix2 p (colO q)) :=
  extractStridedSlice_apply ![0, 1536] y slices_S1024x2048_o0_1536_S1024x512 (ix2 p q) (ix2 p (colO q)) (fun a => match a with
    | ⟨0, _⟩ => by show p.val = 0 + p.val; omega
    | ⟨1, _⟩ => by show 1536 + q.val = 1536 + q.val; rfl)

/-! ## The pointwise transcendental operations, read at an index -/

section
variable {s : Shape} {φ : FTy}
/-- The hyperbolic tangent of a vector at an index is that of the entry. -/
theorem tanh_at (a : FVec Ideal s φ) (i : s.Idx) : tanh a i = Ideal.tanh (a i) := rfl
/-- The exponential of a vector at an index is that of the entry. -/
theorem exp_at (a : FVec Ideal s φ) (i : s.Idx) : exp a i = Ideal.exp (a i) := rfl
/-- The logistic function of a vector at an index is that of the entry. -/
theorem logistic_at (a : FVec Ideal s φ) (i : s.Idx) : logistic a i = Ideal.logistic (a i) := rfl
end

/-! ## The payloads at a tile entry -/

theorem gates_apply (v0 v1 : Vec Ideal S1024x512 .f32) (v5 v12 : Vec Ideal S512x2048 .bf16) (v8 v16 : Vec Ideal S1x2048 .f32)
    (r : Fin 16384) (p : Fin 1024) (J : Fin 2048)
    (h0 : ∀ k : Fin 512, v0 (ix2 p k) = x (ix2 r k)) (h1 : ∀ k : Fin 512, v1 (ix2 p k) = h (ix2 r k))
    (h5 : ∀ (k : Fin 512) (J : Fin 2048), v5 (ix2 k J) = Wx (ix2 J k))
    (h12 : ∀ (k : Fin 512) (J : Fin 2048), v12 (ix2 k J) = Wh (ix2 J k))
    (h8 : ∀ J : Fin 2048, v8 (ix2 (0 : Fin 1) J) = bx (ix1 J)) (h16 : ∀ J : Fin 2048, v16 (ix2 (0 : Fin 1) J) = bh (ix1 J)) :
    k0_pay4 (F := Ideal) v0 v1 v5 v8 v12 v16 (ix2 p J) = pre x h Wx Wh bx bh r J := by
  unfold k0_pay4 k0_pay2 k0_pay3
  beta_reduce
  rw [addf_apply, addf_apply, addf_apply, matmul_wide_apply, matmul_wide_apply, bcast_wide_apply, bcast_wide_apply,
    shapeCast_self, shapeCast_self, shapeCast_self, shapeCast_self, h8, h16]
  refine Eq.trans ?_ (pre_leftAssoc x h Wx Wh bx bh r J)
  refine congrArg₂ (· + ·) (congrArg₂ (· + ·) (congrArg₂ (· + ·) (Finset.sum_congr rfl fun k _ => ?_) rfl)
    (Finset.sum_congr rfl fun k _ => ?_)) rfl
  · rw [truncf_apply, h0, h5]
  · rw [truncf_apply, h1, h12]

theorem cell_apply (v0 v1 v2 : Vec Ideal S1024x512 .f32) (v5 v12 : Vec Ideal S512x2048 .bf16) (v8 v16 : Vec Ideal S1x2048 .f32)
    (r : Fin 16384) (p : Fin 1024) (q : Fin 512)
    (h0 : ∀ k : Fin 512, v0 (ix2 p k) = x (ix2 r k)) (h1 : ∀ k : Fin 512, v1 (ix2 p k) = h (ix2 r k))
    (h2 : v2 (ix2 p q) = c (ix2 r q))
    (h5 : ∀ (k : Fin 512) (J : Fin 2048), v5 (ix2 k J) = Wx (ix2 J k))
    (h12 : ∀ (k : Fin 512) (J : Fin 2048), v12 (ix2 k J) = Wh (ix2 J k))
    (h8 : ∀ J : Fin 2048, v8 (ix2 (0 : Fin 1) J) = bx (ix1 J)) (h16 : ∀ J : Fin 2048, v16 (ix2 (0 : Fin 1) J) = bh (ix1 J)) :
    k0_pay6 (F := Ideal) v0 v1 v2 v5 v8 v12 v16 (ix2 p q) = cellAt x h c Wx Wh bx bh r q := by
  unfold k0_pay6
  beta_reduce
  rw [addf_apply, mulf_apply, mulf_apply, logistic_at, logistic_at, tanh_at, slice_F_apply, slice_I_apply, slice_C_apply,
    gates_apply x h Wx Wh bx bh v0 v1 v5 v12 v8 v16 r p (colF q) h0 h1 h5 h12 h8 h16,
    gates_apply x h Wx Wh bx bh v0 v1 v5 v12 v8 v16 r p (colI q) h0 h1 h5 h12 h8 h16,
    gates_apply x h Wx Wh bx bh v0 v1 v5 v12 v8 v16 r p (colC q) h0 h1 h5 h12 h8 h16, h2]
  rfl

/-- The output gate on the tile: the logistic function of its stacked column's pre-activation. -/
theorem outGate_apply (v0 v1 : Vec Ideal S1024x512 .f32) (v5 v12 : Vec Ideal S512x2048 .bf16) (v8 v16 : Vec Ideal S1x2048 .f32)
    (r : Fin 16384) (p : Fin 1024) (q : Fin 512)
    (h0 : ∀ k : Fin 512, v0 (ix2 p k) = x (ix2 r k)) (h1 : ∀ k : Fin 512, v1 (ix2 p k) = h (ix2 r k))
    (h5 : ∀ (k : Fin 512) (J : Fin 2048), v5 (ix2 k J) = Wx (ix2 J k))
    (h12 : ∀ (k : Fin 512) (J : Fin 2048), v12 (ix2 k J) = Wh (ix2 J k))
    (h8 : ∀ J : Fin 2048, v8 (ix2 (0 : Fin 1) J) = bx (ix1 J)) (h16 : ∀ J : Fin 2048, v16 (ix2 (0 : Fin 1) J) = bh (ix1 J)) :
    k0_pay5 (F := Ideal) v0 v1 v5 v8 v12 v16 (ix2 p q) = Ideal.logistic (pre x h Wx Wh bx bh r (colO q)) := by
  unfold k0_pay5
  beta_reduce
  rw [logistic_at, slice_O_apply,
    gates_apply x h Wx Wh bx bh v0 v1 v5 v12 v8 v16 r p (colO q) h0 h1 h5 h12 h8 h16]

/-- The exponential gate's product with the input block: the sum against the weight's first 512 columns. -/
theorem expX_apply (v0 : Vec Ideal S1024x512 .f32) (v31 : Vec Ideal S512x512 .bf16)
    (r : Fin 16384) (p : Fin 1024) (q : Fin 512)
    (h0 : ∀ k : Fin 512, v0 (ix2 p k) = x (ix2 r k))
    (h31 : ∀ k j : Fin 512, v31 (ix2 k j) = We (ix2 j (colX k))) :
    k0_pay7 (F := Ideal) v0 v31 (ix2 p q) = ∑ k : Fin 512, x (ix2 r k) * We (ix2 q (colX k)) := by
  unfold k0_pay7 k0_pay2
  beta_reduce
  rw [matmul_narrow_apply, shapeCast_self]
  refine Finset.sum_congr rfl fun k _ => ?_
  rw [truncf_apply, h0, h31]

/-- The exponential gate's product with the hidden block: the sum against the weight's last 512 columns. -/
theorem expH_apply (v1 : Vec Ideal S1024x512 .f32) (v34 : Vec Ideal S512x512 .bf16)
    (r : Fin 16384) (p : Fin 1024) (q : Fin 512)
    (h1 : ∀ k : Fin 512, v1 (ix2 p k) = h (ix2 r k))
    (h34 : ∀ k j : Fin 512, v34 (ix2 k j) = We (ix2 j (colH k))) :
    k0_pay8 (F := Ideal) v1 v34 (ix2 p q) = ∑ k : Fin 512, h (ix2 r k) * We (ix2 q (colH k)) := by
  unfold k0_pay8 k0_pay3
  beta_reduce
  rw [matmul_narrow_apply, shapeCast_self]
  refine Finset.sum_congr rfl fun k _ => ?_
  rw [truncf_apply, h1, h34]

theorem hidden_apply (v0 v1 v2 : Vec Ideal S1024x512 .f32) (v5 v12 : Vec Ideal S512x2048 .bf16) (v8 v16 : Vec Ideal S1x2048 .f32)
    (v31 v34 : Vec Ideal S512x512 .bf16) (v38 : Vec Ideal S1x512 .f32)
    (r : Fin 16384) (p : Fin 1024) (q : Fin 512)
    (h0 : ∀ k : Fin 512, v0 (ix2 p k) = x (ix2 r k)) (h1 : ∀ k : Fin 512, v1 (ix2 p k) = h (ix2 r k))
    (h2 : v2 (ix2 p q) = c (ix2 r q))
    (h5 : ∀ (k : Fin 512) (J : Fin 2048), v5 (ix2 k J) = Wx (ix2 J k))
    (h12 : ∀ (k : Fin 512) (J : Fin 2048), v12 (ix2 k J) = Wh (ix2 J k))
    (h8 : ∀ J : Fin 2048, v8 (ix2 (0 : Fin 1) J) = bx (ix1 J)) (h16 : ∀ J : Fin 2048, v16 (ix2 (0 : Fin 1) J) = bh (ix1 J))
    (h31 : ∀ k j : Fin 512, v31 (ix2 k j) = We (ix2 j (colX k))) (h34 : ∀ k j : Fin 512, v34 (ix2 k j) = We (ix2 j (colH k)))
    (h38 : ∀ j : Fin 512, v38 (ix2 (0 : Fin 1) j) = be (ix1 j)) :
    k0_pay1 (F := Ideal) (k0_pay5 v0 v1 v5 v8 v12 v16) (k0_pay6 v0 v1 v2 v5 v8 v12 v16) (k0_pay7 v0 v31) (k0_pay8 v1 v34) v38 (ix2 p q)
      = hiddenAt x h c Wx Wh bx bh We be r q := by
  unfold k0_pay1
  beta_reduce
  rw [mulf_apply, mulf_apply, exp_at, tanh_at, tanh_at, addf_apply, addf_apply, bcast_narrow_apply, shapeCast_self,
    outGate_apply x h Wx Wh bx bh v0 v1 v5 v12 v8 v16 r p q h0 h1 h5 h12 h8 h16,
    cell_apply x h c Wx Wh bx bh v0 v1 v2 v5 v12 v8 v16 r p q h0 h1 h2 h5 h12 h8 h16,
    expX_apply x We v0 v31 r p q h0 h31, expH_apply h We v1 v34 r p q h1 h34, h38]
  rfl

end Cert.KernelIdeal.TileValue

end
-- ==== Proof.IdealValue.lean ====
/-
  What the idealized kernel's program leaves in its two result arrays, as functions of the arguments.

  The launch walks sixteen batch tiles of 1024 rows. At a point the three batch inputs' blocks are the tile's rows of
  `x`, `h` and the cell state; the seven weight and bias blocks are whole arrays the host operations prepared: the
  stacked gate weights transposed, the stacked biases as rows, the two halves of the exponential gate's weight
  transposed, its bias as a row. With those readings the body's values on a tile are the cell specification's on the
  tile's batch rows, each point writes back one block of the specification's arrays, the sixteen blocks tile the
  batch, and so the two arrays end at the specification's hidden and cell state.
-/
import proofs.«140445_j76390288327651_1_alg».proof.Proof.IdealRun
import proofs.«140445_j76390288327651_1_alg».proof.Proof.Spec
import proofs.«140445_j76390288327651_1_alg».proof.Proof.TileValue
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HandValue

open Cert.KernelIdeal Cert.KernelIdeal.Gen Cert.KernelIdeal.Hand Cert.CellSpec
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The four gates' input weights stacked, as the first host operation builds them. -/
abbrev stackWx (c : Dev nD) : FVec Ideal S2048x512 .f32 :=
  concatenate S2048x512 0 [⟨S512x512, m ((c : Thread nD τ).loc main_arg3)⟩, ⟨S512x512, m ((c : Thread nD τ).loc main_arg7)⟩,
    ⟨S512x512, m ((c : Thread nD τ).loc main_arg11)⟩, ⟨S512x512, m ((c : Thread nD τ).loc main_arg15)⟩]
    concatenates_S512x512_S512x512_S512x512_S512x512_S2048x512_d0
/-- The four gates' input biases stacked. -/
abbrev stackBx (c : Dev nD) : FVec Ideal S2048 .f32 :=
  concatenate S2048 0 [⟨S512, m ((c : Thread nD τ).loc main_arg4)⟩, ⟨S512, m ((c : Thread nD τ).loc main_arg8)⟩,
    ⟨S512, m ((c : Thread nD τ).loc main_arg12)⟩, ⟨S512, m ((c : Thread nD τ).loc main_arg16)⟩]
    concatenates_S512_S512_S512_S512_S2048_d0
/-- The four gates' recurrent weights stacked. -/
abbrev stackWh (c : Dev nD) : FVec Ideal S2048x512 .f32 :=
  concatenate S2048x512 0 [⟨S512x512, m ((c : Thread nD τ).loc main_arg5)⟩, ⟨S512x512, m ((c : Thread nD τ).loc main_arg9)⟩,
    ⟨S512x512, m ((c : Thread nD τ).loc main_arg13)⟩, ⟨S512x512, m ((c : Thread nD τ).loc main_arg17)⟩]
    concatenates_S512x512_S512x512_S512x512_S512x512_S2048x512_d0
/-- The four gates' recurrent biases stacked. -/
abbrev stackBh (c : Dev nD) : FVec Ideal S2048 .f32 :=
  concatenate S2048 0 [⟨S512, m ((c : Thread nD τ).loc main_arg6)⟩, ⟨S512, m ((c : Thread nD τ).loc main_arg10)⟩,
    ⟨S512, m ((c : Thread nD τ).loc main_arg14)⟩, ⟨S512, m ((c : Thread nD τ).loc main_arg18)⟩]
    concatenates_S512_S512_S512_S512_S2048_d0

/-! ## The rows of a tile -/

/-- A grid point is one of sixteen. -/
theorem point_lt (t : Fin cfg0.N) : t.val < 16 := lt_of_lt_of_eq t.isLt N_0

/-- Row `p` of the tile at point `t` is batch row `1024·t + p`. -/
def rowOf (t : Fin cfg0.N) (p : Fin 1024) : Fin 16384 := ⟨t.val * 1024 + p.val, by have := point_lt t; omega⟩

theorem hz : (![0, 0] : Fin 2 → Nat) = fun _ => 0 := funext fun a => by fin_cases a <;> rfl

/-! ## The index maps, decided over the sixteen points

  The three batch inputs and the two outputs move down the batch axis with the point; the seven weight and bias windows
  stay at their one block. -/

theorem idx_x : ∀ t : Fin cfg0.N, win0_0.index t (0 : Fin 2) = t.val ∧ win0_0.index t (1 : Fin 2) = 0 :=
  (by decide +kernel : ∀ t : Fin grid0.N, _)
theorem idx_h : ∀ t : Fin cfg0.N, win0_1.index t (0 : Fin 2) = t.val ∧ win0_1.index t (1 : Fin 2) = 0 :=
  (by decide +kernel : ∀ t : Fin grid0.N, _)
theorem idx_c : ∀ t : Fin cfg0.N, win0_2.index t (0 : Fin 2) = t.val ∧ win0_2.index t (1 : Fin 2) = 0 :=
  (by decide +kernel : ∀ t : Fin grid0.N, _)
theorem idx_wx : ∀ t : Fin cfg0.N, win0_3.index t (0 : Fin 2) = 0 ∧ win0_3.index t (1 : Fin 2) = 0 :=
  (by decide +kernel : ∀ t : Fin grid0.N, _)
theorem idx_wh : ∀ t : Fin cfg0.N, win0_4.index t (0 : Fin 2) = 0 ∧ win0_4.index t (1 : Fin 2) = 0 :=
  (by decide +kernel : ∀ t : Fin grid0.N, _)
theorem idx_bx : ∀ t : Fin cfg0.N, win0_5.index t (0 : Fin 2) = 0 ∧ win0_5.index t (1 : Fin 2) = 0 :=
  (by decide +kernel : ∀ t : Fin grid0.N, _)
theorem idx_bh : ∀ t : Fin cfg0.N, win0_6.index t (0 : Fin 2) = 0 ∧ win0_6.index t (1 : Fin 2) = 0 :=
  (by decide +kernel : ∀ t : Fin grid0.N, _)
theorem idx_wex : ∀ t : Fin cfg0.N, win0_7.index t (0 : Fin 2) = 0 ∧ win0_7.index t (1 : Fin 2) = 0 :=
  (by decide +kernel : ∀ t : Fin grid0.N, _)
theorem idx_weh : ∀ t : Fin cfg0.N, win0_8.index t (0 : Fin 2) = 0 ∧ win0_8.index t (1 : Fin 2) = 0 :=
  (by decide +kernel : ∀ t : Fin grid0.N, _)
theorem idx_be : ∀ t : Fin cfg0.N, win0_9.index t (0 : Fin 2) = 0 ∧ win0_9.index t (1 : Fin 2) = 0 :=
  (by decide +kernel : ∀ t : Fin grid0.N, _)
theorem idx_hout : ∀ t : Fin cfg0.N, win0_10.index t (0 : Fin 2) = t.val ∧ win0_10.index t (1 : Fin 2) = 0 :=
  (by decide +kernel : ∀ t : Fin grid0.N, _)
theorem idx_cout : ∀ t : Fin cfg0.N, win0_11.index t (0 : Fin 2) = t.val ∧ win0_11.index t (1 : Fin 2) = 0 :=
  (by decide +kernel : ∀ t : Fin grid0.N, _)

/-! ## What the launch finds in the seven arrays the host operations prepared -/

/-- The stacked input weights, transposed (narrowing to bf16 is the identity on the extended reals). -/
theorem V_v5 (c : Dev nD) : (V m c main_v5 : S512x2048.Idx → EReal)
    = truncf (F := Ideal) .bf16 (transpose S512x2048 [1, 0] (stackWx m c) transposes_S2048x512_S512x2048_1_0) bitsLt_bf16_f32 := by
  dsimp only [V, hostOps0]; after_results; rfl
/-- The stacked recurrent weights, transposed. -/
theorem V_v7 (c : Dev nD) : (V m c main_v7 : S512x2048.Idx → EReal)
    = truncf (F := Ideal) .bf16 (transpose S512x2048 [1, 0] (stackWh m c) transposes_S2048x512_S512x2048_1_0) bitsLt_bf16_f32 := by
  dsimp only [V, hostOps0]; after_results; rfl
/-- The stacked input biases as one row. -/
theorem V_v8 (c : Dev nD) : (V m c main_v8 : S1x2048.Idx → EReal) = shapeCast S1x2048 (stackBx m c) shapeCasts_S2048_S1x2048 := by
  dsimp only [V, hostOps0]; after_results; rfl
/-- The stacked recurrent biases as one row. -/
theorem V_v9 (c : Dev nD) : (V m c main_v9 : S1x2048.Idx → EReal) = shapeCast S1x2048 (stackBh m c) shapeCasts_S2048_S1x2048 := by
  dsimp only [V, hostOps0]; after_results; rfl
/-- The left half of the exponential gate's weight, transposed. -/
theorem V_v13 (c : Dev nD) : (V m c main_v13 : S512x512.Idx → EReal)
    = truncf (F := Ideal) .bf16 (transpose S512x512 [1, 0] (extractStridedSlice S512x512 ![0, 0] (m ((c : Thread nD τ).loc main_arg19)) slices_S512x1024_S512x512_0_0) transposes_S512x512_S512x512_1_0) bitsLt_bf16_f32 := by
  dsimp only [V, hostOps0]; after_results
/-- The right half of the exponential gate's weight, transposed. -/
theorem V_v15 (c : Dev nD) : (V m c main_v15 : S512x512.Idx → EReal)
    = truncf (F := Ideal) .bf16 (transpose S512x512 [1, 0] (extractStridedSlice S512x512 ![0, 512] (m ((c : Thread nD τ).loc main_arg19)) slices_S512x1024_S512x512_0_512) transposes_S512x512_S512x512_1_0) bitsLt_bf16_f32 := by
  dsimp only [V, hostOps0]; after_results
/-- The exponential gate's bias as one row. -/
theorem V_v16 (c : Dev nD) : (V m c main_v16 : S1x512.Idx → EReal) = shapeCast S1x512 (m ((c : Thread nD τ).loc main_arg20)) shapeCasts_S512_S1x512 := by
  dsimp only [V, hostOps0]; after_results; rfl

/-! ## The ten input blocks at a point, entry by entry -/

/-- Row `p` of the `x` tile is batch row `1024·t + p` of `x`. -/
theorem xBlk_apply (c : Dev nD) (t : Fin cfg0.N) (p : Fin 1024) (k : Fin 512) :
    (iblk m c 0 t : S1024x512.Idx → EReal) (ix2 p k) = m ((c : Thread nD τ).loc main_arg0) (ix2 (rowOf t p) k) := by
  show V m c main_arg0 (((cfg0.win 0).blk t).view.emb (ix2 p k)) = _
  rw [V_kept m c main_arg0 (by decide)]
  refine congrArg _ (funext fun a => Fin.ext ?_)
  match a with
  | ⟨0, _⟩ => show win0_0.index t (0 : Fin 2) * 1024 + 1 * p.val = t.val * 1024 + p.val; rw [(idx_x t).1]; omega
  | ⟨1, _⟩ => show win0_0.index t (1 : Fin 2) * 512 + 1 * k.val = k.val; rw [(idx_x t).2]; omega

/-- Row `p` of the `h` tile is batch row `1024·t + p` of `h`. -/
theorem hBlk_apply (c : Dev nD) (t : Fin cfg0.N) (p : Fin 1024) (k : Fin 512) :
    (iblk m c 1 t : S1024x512.Idx → EReal) (ix2 p k) = m ((c : Thread nD τ).loc main_arg1) (ix2 (rowOf t p) k) := by
  show V m c main_arg1 (((cfg0.win 1).blk t).view.emb (ix2 p k)) = _
  rw [V_kept m c main_arg1 (by decide)]
  refine congrArg _ (funext fun a => Fin.ext ?_)
  match a with
  | ⟨0, _⟩ => show win0_1.index t (0 : Fin 2) * 1024 + 1 * p.val = t.val * 1024 + p.val; rw [(idx_h t).1]; omega
  | ⟨1, _⟩ => show win0_1.index t (1 : Fin 2) * 512 + 1 * k.val = k.val; rw [(idx_h t).2]; omega

/-- Row `p` of the cell-state tile is batch row `1024·t + p` of the cell state. -/
theorem cBlk_apply (c : Dev nD) (t : Fin cfg0.N) (p : Fin 1024) (k : Fin 512) :
    (iblk m c 2 t : S1024x512.Idx → EReal) (ix2 p k) = m ((c : Thread nD τ).loc main_arg2) (ix2 (rowOf t p) k) := by
  show V m c main_arg2 (((cfg0.win 2).blk t).view.emb (ix2 p k)) = _
  rw [V_kept m c main_arg2 (by decide)]
  refine congrArg _ (funext fun a => Fin.ext ?_)
  match a with
  | ⟨0, _⟩ => show win0_2.index t (0 : Fin 2) * 1024 + 1 * p.val = t.val * 1024 + p.val; rw [(idx_c t).1]; omega
  | ⟨1, _⟩ => show win0_2.index t (1 : Fin 2) * 512 + 1 * k.val = k.val; rw [(idx_c t).2]; omega

/-- The input-weight block is the transpose of the stacked input weights. -/
theorem wxBlk_apply (c : Dev nD) (t : Fin cfg0.N) (k : Fin 512) (J : Fin 2048) :
    (iblk m c 3 t : S512x2048.Idx → EReal) (ix2 k J) = stackWx m c (ix2 J k) := by
  show V m c main_v5 (((cfg0.win 3).blk t).view.emb (ix2 k J)) = _
  rw [V_v5, truncf_apply]
  refine (transpose_apply [1, 0] (stackWx m c) transposes_S2048x512_S512x2048_1_0 _ (ix2 J k) (fun b => ?_))
  match b with
  | ⟨0, _⟩ => show k.val = win0_3.index t (0 : Fin 2) * 512 + 1 * k.val; rw [(idx_wx t).1]; omega
  | ⟨1, _⟩ => show J.val = win0_3.index t (1 : Fin 2) * 2048 + 1 * J.val; rw [(idx_wx t).2]; omega

/-- The recurrent-weight block is the transpose of the stacked recurrent weights. -/
theorem whBlk_apply (c : Dev nD) (t : Fin cfg0.N) (k : Fin 512) (J : Fin 2048) :
    (iblk m c 4 t : S512x2048.Idx → EReal) (ix2 k J) = stackWh m c (ix2 J k) := by
  show V m c main_v7 (((cfg0.win 4).blk t).view.emb (ix2 k J)) = _
  rw [V_v7, truncf_apply]
  refine (transpose_apply [1, 0] (stackWh m c) transposes_S2048x512_S512x2048_1_0 _ (ix2 J k) (fun b => ?_))
  match b with
  | ⟨0, _⟩ => show k.val = win0_4.index t (0 : Fin 2) * 512 + 1 * k.val; rw [(idx_wh t).1]; omega
  | ⟨1, _⟩ => show J.val = win0_4.index t (1 : Fin 2) * 2048 + 1 * J.val; rw [(idx_wh t).2]; omega

/-- The input-bias block is the stacked input biases laid out as a row. -/
theorem bxBlk_apply (c : Dev nD) (t : Fin cfg0.N) (J : Fin 2048) :
    (iblk m c 5 t : S1x2048.Idx → EReal) (ix2 (0 : Fin 1) J) = stackBx m c (ix1 J) := by
  show V m c main_v8 (((cfg0.win 5).blk t).view.emb (ix2 (0 : Fin 1) J)) = _
  rw [V_v8]
  refine (shapeCast_addUnit_apply ![2048] (stackBx m c) shapeCasts_S2048_S1x2048 _).trans (congrArg _ (funext fun a => Fin.ext ?_))
  match a with
  | ⟨0, _⟩ => show win0_5.index t (1 : Fin 2) * 2048 + 1 * J.val = J.val; rw [(idx_bx t).2]; omega

/-- The recurrent-bias block is the stacked recurrent biases laid out as a row. -/
theorem bhBlk_apply (c : Dev nD) (t : Fin cfg0.N) (J : Fin 2048) :
    (iblk m c 6 t : S1x2048.Idx → EReal) (ix2 (0 : Fin 1) J) = stackBh m c (ix1 J) := by
  show V m c main_v9 (((cfg0.win 6).blk t).view.emb (ix2 (0 : Fin 1) J)) = _
  rw [V_v9]
  refine (shapeCast_addUnit_apply ![2048] (stackBh m c) shapeCasts_S2048_S1x2048 _).trans (congrArg _ (funext fun a => Fin.ext ?_))
  match a with
  | ⟨0, _⟩ => show win0_6.index t (1 : Fin 2) * 2048 + 1 * J.val = J.val; rw [(idx_bh t).2]; omega

/-- The block of the exponential gate's weight that multiplies `x`: the transpose of the weight's left half. -/
theorem wexBlk_apply (c : Dev nD) (t : Fin cfg0.N) (k j : Fin 512) :
    (iblk m c 7 t : S512x512.Idx → EReal) (ix2 k j) = m ((c : Thread nD τ).loc main_arg19) (ix2 j (colX k)) := by
  show V m c main_v13 (((cfg0.win 7).blk t).view.emb (ix2 k j)) = _
  rw [V_v13, truncf_apply]
  refine (transpose_apply [1, 0] _ transposes_S512x512_S512x512_1_0 _ (ix2 j k) (fun b => ?_)).trans ?_
  · match b with
    | ⟨0, _⟩ => show k.val = win0_7.index t (0 : Fin 2) * 512 + 1 * k.val; rw [(idx_wex t).1]; omega
    | ⟨1, _⟩ => show j.val = win0_7.index t (1 : Fin 2) * 512 + 1 * j.val; rw [(idx_wex t).2]; omega
  · refine extractStridedSlice_apply ![0, 0] _ slices_S512x1024_S512x512_0_0 (ix2 j k) (ix2 j (colX k)) (fun a => ?_)
    match a with
    | ⟨0, _⟩ => show j.val = 0 + j.val; omega
    | ⟨1, _⟩ => show k.val = 0 + k.val; omega

/-- The block of the exponential gate's weight that multiplies `h`: the transpose of the weight's right half. -/
theorem wehBlk_apply (c : Dev nD) (t : Fin cfg0.N) (k j : Fin 512) :
    (iblk m c 8 t : S512x512.Idx → EReal) (ix2 k j) = m ((c : Thread nD τ).loc main_arg19) (ix2 j (colH k)) := by
  show V m c main_v15 (((cfg0.win 8).blk t).view.emb (ix2 k j)) = _
  rw [V_v15, truncf_apply]
  refine (transpose_apply [1, 0] _ transposes_S512x512_S512x512_1_0 _ (ix2 j k) (fun b => ?_)).trans ?_
  · match b with
    | ⟨0, _⟩ => show k.val = win0_8.index t (0 : Fin 2) * 512 + 1 * k.val; rw [(idx_weh t).1]; omega
    | ⟨1, _⟩ => show j.val = win0_8.index t (1 : Fin 2) * 512 + 1 * j.val; rw [(idx_weh t).2]; omega
  · refine extractStridedSlice_apply ![0, 512] _ slices_S512x1024_S512x512_0_512 (ix2 j k) (ix2 j (colH k)) (fun a => ?_)
    match a with
    | ⟨0, _⟩ => show j.val = 0 + j.val; omega
    | ⟨1, _⟩ => show 512 + k.val = 512 + k.val; rfl

/-- The exponential gate's bias block is the bias laid out as a row. -/
theorem beBlk_apply (c : Dev nD) (t : Fin cfg0.N) (j : Fin 512) :
    (iblk m c 9 t : S1x512.Idx → EReal) (ix2 (0 : Fin 1) j) = m ((c : Thread nD τ).loc main_arg20) (ix1 j) := by
  show V m c main_v16 (((cfg0.win 9).blk t).view.emb (ix2 (0 : Fin 1) j)) = _
  rw [V_v16]
  refine (shapeCast_addUnit_apply ![512] (m ((c : Thread nD τ).loc main_arg20)) shapeCasts_S512_S1x512 _).trans (congrArg _ (funext fun a => Fin.ext ?_))
  match a with
  | ⟨0, _⟩ => show win0_9.index t (1 : Fin 2) * 512 + 1 * j.val = j.val; rw [(idx_be t).2]; omega

/-! ## A tile's values are the specification's on its batch rows -/

/-- The new cell state the body computes at a point, at tile entry `(p, q)`, is the specification's at batch row
    `1024·t + p`: the blocks agree with the arrays there, entry by entry. -/
theorem cellTile_blk (c : Dev nD) (t : Fin cfg0.N) (p : Fin 1024) (q : Fin 512) :
    cellTile (F := Ideal) (iblk m c 0 t) (iblk m c 1 t) (iblk m c 2 t) (iblk m c 3 t) (iblk m c 4 t) (iblk m c 5 t) (iblk m c 6 t) (ix2 p q)
      = cellAt (m ((c : Thread nD τ).loc main_arg0)) (m ((c : Thread nD τ).loc main_arg1)) (m ((c : Thread nD τ).loc main_arg2))
          (stackWx m c) (stackWh m c) (stackBx m c) (stackBh m c) (rowOf t p) q := by
  unfold cellTile
  simp only [View.ld_unit_zero (S := S1024x512) hz, View.ld_unit_zero (S := S512x2048) hz, View.ld_unit_zero (S := S1x2048) hz]
  exact TileValue.cell_apply _ _ _ _ _ _ _ (iblk m c 0 t) (iblk m c 1 t) (iblk m c 2 t) (iblk m c 3 t) (iblk m c 4 t)
    (iblk m c 5 t) (iblk m c 6 t) (rowOf t p) p q (fun k => xBlk_apply m c t p k) (fun k => hBlk_apply m c t p k)
    (cBlk_apply m c t p q) (fun k J => wxBlk_apply m c t k J) (fun k J => whBlk_apply m c t k J)
    (fun J => bxBlk_apply m c t J) (fun J => bhBlk_apply m c t J)

/-- The new hidden state the body computes at a point, at tile entry `(p, q)`, is the specification's at batch row
    `1024·t + p`. -/
theorem hiddenTile_blk (c : Dev nD) (t : Fin cfg0.N) (p : Fin 1024) (q : Fin 512) :
    hiddenTile (F := Ideal) (iblk m c 0 t) (iblk m c 1 t) (iblk m c 2 t) (iblk m c 3 t) (iblk m c 4 t) (iblk m c 5 t) (iblk m c 6 t)
        (iblk m c 7 t) (iblk m c 8 t) (iblk m c 9 t) (ix2 p q)
      = hiddenAt (m ((c : Thread nD τ).loc main_arg0)) (m ((c : Thread nD τ).loc main_arg1)) (m ((c : Thread nD τ).loc main_arg2))
          (stackWx m c) (stackWh m c) (stackBx m c) (stackBh m c) (m ((c : Thread nD τ).loc main_arg19)) (m ((c : Thread nD τ).loc main_arg20))
          (rowOf t p) q := by
  unfold hiddenTile cellTile
  simp only [View.ld_unit_zero (S := S1024x512) hz, View.ld_unit_zero (S := S512x2048) hz, View.ld_unit_zero (S := S1x2048) hz,
    View.ld_unit_zero (S := S512x512) hz, View.ld_unit_zero (S := S1x512) hz]
  exact TileValue.hidden_apply _ _ _ _ _ _ _ _ _ (iblk m c 0 t) (iblk m c 1 t) (iblk m c 2 t) (iblk m c 3 t) (iblk m c 4 t)
    (iblk m c 5 t) (iblk m c 6 t) (iblk m c 7 t) (iblk m c 8 t) (iblk m c 9 t) (rowOf t p) p q
    (fun k => xBlk_apply m c t p k) (fun k => hBlk_apply m c t p k)
    (cBlk_apply m c t p q) (fun k J => wxBlk_apply m c t k J) (fun k J => whBlk_apply m c t k J)
    (fun J => bxBlk_apply m c t J) (fun J => bhBlk_apply m c t J)
    (fun k j => wexBlk_apply m c t k j) (fun k j => wehBlk_apply m c t k j) (fun j => beBlk_apply m c t j)

/-! ## The two result arrays -/

/-- The new cell state of the whole batch, from the arguments. -/
abbrev cellArr (c : Dev nD) : FVec Ideal S16384x512 .f32 :=
  cellOut (m ((c : Thread nD τ).loc main_arg0)) (m ((c : Thread nD τ).loc main_arg1)) (m ((c : Thread nD τ).loc main_arg2))
    (stackWx m c) (stackWh m c) (stackBx m c) (stackBh m c)

/-- The new hidden state of the whole batch, from the arguments. -/
abbrev hiddenArr (c : Dev nD) : FVec Ideal S16384x512 .f32 :=
  hiddenOut (m ((c : Thread nD τ).loc main_arg0)) (m ((c : Thread nD τ).loc main_arg1)) (m ((c : Thread nD τ).loc main_arg2))
    (stackWx m c) (stackWh m c) (stackBx m c) (stackBh m c) (m ((c : Thread nD τ).loc main_arg19)) (m ((c : Thread nD τ).loc main_arg20))

/-- Entry `(p, q)` of the block an output window writes at point `t` lies at batch row `1024·t + p`, column `q`. -/
theorem emb_hout (t : Fin cfg0.N) (p : Fin 1024) (q : Fin 512) :
    ((cfg0.win 10).blk t).view.emb (ix2 p q) = ix2 (rowOf t p) q := by
  funext a; apply Fin.ext
  match a with
  | ⟨0, _⟩ => show win0_10.index t (0 : Fin 2) * 1024 + 1 * p.val = t.val * 1024 + p.val; rw [(idx_hout t).1]; omega
  | ⟨1, _⟩ => show win0_10.index t (1 : Fin 2) * 512 + 1 * q.val = q.val; rw [(idx_hout t).2]; omega

theorem emb_cout (t : Fin cfg0.N) (p : Fin 1024) (q : Fin 512) :
    ((cfg0.win 11).blk t).view.emb (ix2 p q) = ix2 (rowOf t p) q := by
  funext a; apply Fin.ext
  match a with
  | ⟨0, _⟩ => show win0_11.index t (0 : Fin 2) * 1024 + 1 * p.val = t.val * 1024 + p.val; rw [(idx_cout t).1]; omega
  | ⟨1, _⟩ => show win0_11.index t (1 : Fin 2) * 512 + 1 * q.val = q.val; rw [(idx_cout t).2]; omega

/-- What point `t` writes back to the hidden state's array is block `t` of the specification's hidden state. -/
theorem flushed_hidden (c : Dev nD) (t : Fin cfg0.N) :
    (dats m 0 c).flushed 10 t = ((cfg0.win 10).blk t).view.read (Elt Ideal) (hiddenArr m c) := by
  show (cfg0.win 10).cut (grid0.coords t) ((dats m 0 c).after 10 t) = _
  rw [after0_10]
  show (out0_10 (iblk m c 0 t) (iblk m c 1 t) (iblk m c 2 t) (iblk m c 3 t) (iblk m c 4 t) (iblk m c 5 t) (iblk m c 6 t)
    (iblk m c 7 t) (iblk m c 8 t) (iblk m c 9 t) : S1024x512.Idx → EReal) = _
  unfold out0_10
  rw [View.canon_unit_zero hz]
  funext j
  obtain ⟨p, q, rfl⟩ : ∃ (p : Fin 1024) (q : Fin 512), j = ix2 p q := ⟨j 0, j 1, eq_ix2 j⟩
  refine (hiddenTile_blk m c t p q).trans ?_
  show _ = hiddenArr m c (((cfg0.win 10).blk t).view.emb (ix2 p q))
  rw [emb_hout]; rfl

/-- What point `t` writes back to the cell state's array is block `t` of the specification's cell state. -/
theorem flushed_cell (c : Dev nD) (t : Fin cfg0.N) :
    (dats m 0 c).flushed 11 t = ((cfg0.win 11).blk t).view.read (Elt Ideal) (cellArr m c) := by
  show (cfg0.win 11).cut (grid0.coords t) ((dats m 0 c).after 11 t) = _
  rw [after0_11]
  show (out0_11 (iblk m c 0 t) (iblk m c 1 t) (iblk m c 2 t) (iblk m c 3 t) (iblk m c 4 t) (iblk m c 5 t) (iblk m c 6 t)
    : S1024x512.Idx → EReal) = _
  unfold out0_11
  rw [View.canon_unit_zero hz]
  funext j
  obtain ⟨p, q, rfl⟩ : ∃ (p : Fin 1024) (q : Fin 512), j = ix2 p q := ⟨j 0, j 1, eq_ix2 j⟩
  refine (cellTile_blk m c t p q).trans ?_
  show _ = cellArr m c (((cfg0.win 11).blk t).view.emb (ix2 p q))
  rw [emb_cout]; rfl

/-! ## The sixteen blocks tile the batch -/

/-- An index of the hidden state's array is in point `t`'s block iff each coordinate is in the block's range. -/
theorem mem_blk_hidden (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v17_0).slice (win0_10.rect t)).set ↔ _
  rw [View.set_slice_whole, Rect.mem_set_unit]
  exact Iff.rfl

theorem mem_blk_cell (t : Fin cfg0.N) (i : S16384x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v17_1).slice (win0_11.rect t)).set ↔ _
  rw [View.set_slice_whole, Rect.mem_set_unit]
  exact Iff.rfl

/-- Batch row `r` lies in the block of point `r / 1024`. -/
def pointOf (i : S16384x512.Idx) : Fin cfg0.N :=
  ⟨(i 0).val / 1024, by have h : (i 0).val < 16384 := (i 0).isLt; rw [show cfg0.N = 16 from N_0]; omega⟩

theorem cover_hidden (i : S16384x512.Idx) :
    ∃ t : Fin cfg0.N, (cfg0.win 10).flush t = true ∧ i ∈ ((cfg0.win 10).blk t).view.set := by
  refine ⟨pointOf i, flush0_10 _, ?_⟩
  rw [mem_blk_hidden]
  have h0 : (i 0).val < 16384 := (i 0).isLt
  have h1 : (i 1).val < 512 := (i 1).isLt
  intro a
  match a with
  | ⟨0, _⟩ =>
    show win0_10.index (pointOf i) (0 : Fin 2) * 1024 ≤ (i 0).val ∧ (i 0).val < win0_10.index (pointOf i) (0 : Fin 2) * 1024 + 1024
    rw [(idx_hout (pointOf i)).1]; show (i 0).val / 1024 * 1024 ≤ (i 0).val ∧ (i 0).val < (i 0).val / 1024 * 1024 + 1024; omega
  | ⟨1, _⟩ =>
    show win0_10.index (pointOf i) (1 : Fin 2) * 512 ≤ (i 1).val ∧ (i 1).val < win0_10.index (pointOf i) (1 : Fin 2) * 512 + 512
    rw [(idx_hout (pointOf i)).2]; omega

theorem cover_cell (i : S16384x512.Idx) :
    ∃ t : Fin cfg0.N, (cfg0.win 11).flush t = true ∧ i ∈ ((cfg0.win 11).blk t).view.set := by
  refine ⟨pointOf i, flush0_11 _, ?_⟩
  rw [mem_blk_cell]
  have h0 : (i 0).val < 16384 := (i 0).isLt
  have h1 : (i 1).val < 512 := (i 1).isLt
  intro a
  match a with
  | ⟨0, _⟩ =>
    show win0_11.index (pointOf i) (0 : Fin 2) * 1024 ≤ (i 0).val ∧ (i 0).val < win0_11.index (pointOf i) (0 : Fin 2) * 1024 + 1024
    rw [(idx_cout (pointOf i)).1]; show (i 0).val / 1024 * 1024 ≤ (i 0).val ∧ (i 0).val < (i 0).val / 1024 * 1024 + 1024; omega
  | ⟨1, _⟩ =>
    show win0_11.index (pointOf i) (1 : Fin 2) * 512 ≤ (i 1).val ∧ (i 1).val < win0_11.index (pointOf i) (1 : Fin 2) * 512 + 512
    rw [(idx_cout (pointOf i)).2]; omega

/-- The hidden state's array after the run. -/
theorem final_hidden (c : Dev nD) : (dats m 0 c).arrAt 10 cfg0.N = hiddenArr m c :=
  (dats m 0 c).arrAt_eq_of_cover 10 (hiddenArr m c) (fun t _ => flushed_hidden m c t) cover_hidden

/-- The cell state's array after the run. -/
theorem final_cell (c : Dev nD) : (dats m 0 c).arrAt 11 cfg0.N = cellArr m c :=
  (dats m 0 c).arrAt_eq_of_cover 11 (cellArr m c) (fun t _ => flushed_cell m c t) cover_cell

/-! ## The run, read -/

/-- Every weakly fair execution of the idealized kernel's program ends with its two results at the specification's
    hidden and cell state of the arguments, and the arguments unchanged. -/
theorem run : θ_run defs (onTc (τ := τ) (main (F := Ideal))) ⟨m, fun _ => 0, ρ⟩ fun r => ∀ c : Dev nD,
      r.2.mem ((c : Thread nD τ).loc main_v17_0) = hiddenArr m c
      ∧ r.2.mem ((c : Thread nD τ).loc main_v17_1) = cellArr m c
      ∧ ArgsKept m r c :=
  (θ_run defs _ _).mono (fun r h c => ⟨((h c).1 10).trans (final_hidden m c), ((h c).1 11).trans (final_cell m c),
      args_kept m (dats m) (A_eq m) r h c⟩)
    (run_main m ρ)

end Cert.KernelIdeal.HandValue

end
-- ==== Proof.RefValue.lean ====
/-
  The reference's two results are the cell specification's arrays.

  Every operation of the reference reads its operands at one index (a matrix product: along one row and one column),
  so each result element is an expression in the argument arrays' elements. Reading the expression off operation by
  operation, at the index `(r, j)`, gives the specification's formula: the two affine layers added are the
  pre-activation of a stacked column, the four column blocks of width 512 are the four gates, `1 / (1 + exp (-g))`
  is the logistic function, and the exponential gate's two products over the two halves of its weight matrix are the
  specification's two sums.
-/
import proofs.«140445_j76390288327651_1_alg».proof.Proof.Gen.ReferenceIdeal.Read
import proofs.«140445_j76390288327651_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.CellSpec
open Idealize.ShloMosaic Idealize.ShloMosaic.ValueIdx
open scoped BigOperators

variable (x0 x1 x2 : FVec Ideal S16384x512 .f32)
  (x3 x5 x7 x9 x11 x13 x15 x17 : FVec Ideal S512x512 .f32) (x4 x6 x8 x10 x12 x14 x16 x18 : FVec Ideal S512 .f32)
  (x19 : FVec Ideal S512x1024 .f32) (x20 : FVec Ideal S512 .f32)

/-! ### Index bookkeeping

The composed index maps of the layout operations (transposes, broadcasts, slices) and of the matrix products' operands,
at the index `(r, J)`: each is a plain pair or single coordinate. -/

/-- Row `r` of the input, position `k` along the contraction. -/
theorem lidx5 (r : Fin 16384) (J : Fin 2048) (k : Fin 512) : lidx_main_v5 (ix2 r J) k = ix2 r k :=
  funext fun a => match a with | ⟨0, _⟩ => rfl | ⟨1, _⟩ => rfl

/-- Through the transpose: row `J` of the stacked weights, position `k`. -/
theorem ridx5 (r : Fin 16384) (J : Fin 2048) (k : Fin 512) : idx_main_v4 (ridx_main_v5 (ix2 r J) k) = ix2 J k :=
  funext fun a => match a with | ⟨0, _⟩ => rfl | ⟨1, _⟩ => rfl

theorem lidx10 (r : Fin 16384) (J : Fin 2048) (k : Fin 512) : lidx_main_v10 (ix2 r J) k = ix2 r k :=
  funext fun a => match a with | ⟨0, _⟩ => rfl | ⟨1, _⟩ => rfl

theorem ridx10 (r : Fin 16384) (J : Fin 2048) (k : Fin 512) : idx_main_v9 (ridx_main_v10 (ix2 r J) k) = ix2 J k :=
  funext fun a => match a with | ⟨0, _⟩ => rfl | ⟨1, _⟩ => rfl

/-- The bias broadcast along the batch reads entry `J`. -/
theorem bidx7 (r : Fin 16384) (J : Fin 2048) : idx_main_v6 (idx_main_v7 (ix2 r J)) = ix1 J :=
  funext fun a => match a with | ⟨0, _⟩ => rfl

theorem bidx12 (r : Fin 16384) (J : Fin 2048) : idx_main_v11 (idx_main_v12 (ix2 r J)) = ix1 J :=
  funext fun a => match a with | ⟨0, _⟩ => rfl

/-- The column block at offset 0 is the input gate's. -/
theorem sidx15 (r : Fin 16384) (j : Fin 512) : idx_main_v15 (ix2 r j) = ix2 r (colI j) :=
  funext fun a => match a with | ⟨0, _⟩ => rfl | ⟨1, _⟩ => rfl

/-- The column block at offset 512 is the forget gate's. -/
theorem sidx16 (r : Fin 16384) (j : Fin 512) : idx_main_v16 (ix2 r j) = ix2 r (colF j) :=
  funext fun a => match a with | ⟨0, _⟩ => rfl | ⟨1, _⟩ => rfl

/-- The column block at offset 1024 is the candidate's. -/
theorem sidx17 (r : Fin 16384) (j : Fin 512) : idx_main_v17 (ix2 r j) = ix2 r (colC j) :=
  funext fun a => match a with | ⟨0, _⟩ => rfl | ⟨1, _⟩ => rfl

/-- The column block at offset 1536 is the output gate's. -/
theorem sidx18 (r : Fin 16384) (j : Fin 512) : idx_main_v18 (ix2 r j) = ix2 r (colO j) :=
  funext fun a => match a with | ⟨0, _⟩ => rfl | ⟨1, _⟩ => rfl

theorem lidx44 (r : Fin 16384) (j : Fin 512) (k : Fin 512) : lidx_main_v44 (ix2 r j) k = ix2 r k :=
  funext fun a => match a with | ⟨0, _⟩ => rfl | ⟨1, _⟩ => rfl

/-- Through the transpose and the slice of the first 512 columns: row `j`, column `k` of the exponential gate's weight. -/
theorem ridx44 (r : Fin 16384) (j : Fin 512) (k : Fin 512) :
    idx_main_v41 (idx_main_v43 (ridx_main_v44 (ix2 r j) k)) = ix2 j (colX k) :=
  funext fun a => match a with | ⟨0, _⟩ => rfl | ⟨1, _⟩ => rfl

theorem lidx46 (r : Fin 16384) (j : Fin 512) (k : Fin 512) : lidx_main_v46 (ix2 r j) k = ix2 r k :=
  funext fun a => match a with | ⟨0, _⟩ => rfl | ⟨1, _⟩ => rfl

/-- Through the transpose and the slice of the last 512 columns: row `j`, column `512 + k`. -/
theorem ridx46 (r : Fin 16384) (j : Fin 512) (k : Fin 512) :
    idx_main_v42 (idx_main_v45 (ridx_main_v46 (ix2 r j) k)) = ix2 j (colH k) :=
  funext fun a => match a with | ⟨0, _⟩ => rfl | ⟨1, _⟩ => rfl

theorem bidx49 (r : Fin 16384) (j : Fin 512) : idx_main_v48 (idx_main_v49 (ix2 r j)) = ix1 j :=
  funext fun a => match a with | ⟨0, _⟩ => rfl

/-! ### The gates -/

/-- The summed affine layers at batch row `r`, stacked column `J`, are the specification's pre-activation. -/
theorem gates_apply (r : Fin 16384) (J : Fin 2048) :
    val_main_v14 (F := Ideal) x0 x1 x3 x4 x5 x6 x7 x8 x9 x10 x11 x12 x13 x14 x15 x16 x17 x18 (ix2 r J)
      = pre x0 x1 (val_main_v0 (F := Ideal) x3 x7 x11 x15) (val_main_v2 (F := Ideal) x5 x9 x13 x17) (val_main_v1 (F := Ideal) x4 x8 x12 x16) (val_main_v3 (F := Ideal) x6 x10 x14 x18) r J := by
  rw [val_main_v14_apply, val_main_v8_apply, val_main_v13_apply, val_main_v5_apply, val_main_v10_apply,
    val_main_v7_apply, val_main_v6_apply, val_main_v12_apply, val_main_v11_apply]
  simp only [val_main_v4_apply, val_main_v9_apply, Ideal.addf_def, lidx5, ridx5, lidx10, ridx10, bidx7, bidx12]
  rfl

/-- The word `0x3F800000` is the number one. -/
theorem one_bits : Ideal.ofBits .f32 0x3F800000#32 = 1 := by
  simp [Ideal.ofBits, Ideal.ieee, -EReal.coe_mul]; norm_num

/-- The input gate: the spelt-out `1 / (1 + exp (-g))` is the logistic function of the pre-activation. -/
theorem sigI_apply (r : Fin 16384) (j : Fin 512) :
    val_main_v24 (F := Ideal) x0 x1 x3 x4 x5 x6 x7 x8 x9 x10 x11 x12 x13 x14 x15 x16 x17 x18 (ix2 r j) = Ideal.logistic (pre x0 x1 (val_main_v0 (F := Ideal) x3 x7 x11 x15) (val_main_v2 (F := Ideal) x5 x9 x13 x17) (val_main_v1 (F := Ideal) x4 x8 x12 x16) (val_main_v3 (F := Ideal) x6 x10 x14 x18) r (colI j)) := by
  rw [val_main_v24_apply, val_main_v23_apply, val_main_cst_0_apply, val_main_v22_apply, val_main_v21_apply,
    val_main_cst_apply, val_main_v20_apply, val_main_v19_apply, val_main_v15_apply, sidx15, gates_apply]
  simp only [Ideal.hostDivf_def, Ideal.addf_def, Ideal.hostUnary_exp_def, Ideal.hostNegf_def, Ideal.negf_def,
    Ideal.ofBits_def, one_bits]
  rfl

/-- The forget gate. -/
theorem sigF_apply (r : Fin 16384) (j : Fin 512) :
    val_main_v30 (F := Ideal) x0 x1 x3 x4 x5 x6 x7 x8 x9 x10 x11 x12 x13 x14 x15 x16 x17 x18 (ix2 r j) = Ideal.logistic (pre x0 x1 (val_main_v0 (F := Ideal) x3 x7 x11 x15) (val_main_v2 (F := Ideal) x5 x9 x13 x17) (val_main_v1 (F := Ideal) x4 x8 x12 x16) (val_main_v3 (F := Ideal) x6 x10 x14 x18) r (colF j)) := by
  rw [val_main_v30_apply, val_main_v29_apply, val_main_cst_2_apply, val_main_v28_apply, val_main_v27_apply,
    val_main_cst_1_apply, val_main_v26_apply, val_main_v25_apply, val_main_v16_apply, sidx16, gates_apply]
  simp only [Ideal.hostDivf_def, Ideal.addf_def, Ideal.hostUnary_exp_def, Ideal.hostNegf_def, Ideal.negf_def,
    Ideal.ofBits_def, one_bits]
  rfl

/-- The output gate. -/
theorem sigO_apply (r : Fin 16384) (j : Fin 512) :
    val_main_v37 (F := Ideal) x0 x1 x3 x4 x5 x6 x7 x8 x9 x10 x11 x12 x13 x14 x15 x16 x17 x18 (ix2 r j) = Ideal.logistic (pre x0 x1 (val_main_v0 (F := Ideal) x3 x7 x11 x15) (val_main_v2 (F := Ideal) x5 x9 x13 x17) (val_main_v1 (F := Ideal) x4 x8 x12 x16) (val_main_v3 (F := Ideal) x6 x10 x14 x18) r (colO j)) := by
  rw [val_main_v37_apply, val_main_v36_apply, val_main_cst_4_apply, val_main_v35_apply, val_main_v34_apply,
    val_main_cst_3_apply, val_main_v33_apply, val_main_v32_apply, val_main_v18_apply, sidx18, gates_apply]
  simp only [Ideal.hostDivf_def, Ideal.addf_def, Ideal.hostUnary_exp_def, Ideal.hostNegf_def, Ideal.negf_def,
    Ideal.ofBits_def, one_bits]
  rfl

/-- The candidate. -/
theorem tanhC_apply (r : Fin 16384) (j : Fin 512) :
    val_main_v31 (F := Ideal) x0 x1 x3 x4 x5 x6 x7 x8 x9 x10 x11 x12 x13 x14 x15 x16 x17 x18 (ix2 r j) = Ideal.tanh (pre x0 x1 (val_main_v0 (F := Ideal) x3 x7 x11 x15) (val_main_v2 (F := Ideal) x5 x9 x13 x17) (val_main_v1 (F := Ideal) x4 x8 x12 x16) (val_main_v3 (F := Ideal) x6 x10 x14 x18) r (colC j)) := by
  rw [val_main_v31_apply, val_main_v17_apply, sidx17, gates_apply]
  rfl

/-! ### The two results at an index -/

/-- The new cell state at `(r, j)`. -/
theorem cell_apply (r : Fin 16384) (j : Fin 512) :
    val_main_v40 (F := Ideal) x0 x1 x2 x3 x4 x5 x6 x7 x8 x9 x10 x11 x12 x13 x14 x15 x16 x17 x18 (ix2 r j) = cellAt x0 x1 x2 (val_main_v0 (F := Ideal) x3 x7 x11 x15) (val_main_v2 (F := Ideal) x5 x9 x13 x17) (val_main_v1 (F := Ideal) x4 x8 x12 x16) (val_main_v3 (F := Ideal) x6 x10 x14 x18) r j := by
  rw [val_main_v40_apply, val_main_v38_apply, val_main_v39_apply, sigF_apply, sigI_apply, tanhC_apply]
  rfl

/-- The exponential gate's argument at `(r, j)`: the two products over the halves of the weight matrix, and the bias. -/
theorem expArg_apply (r : Fin 16384) (j : Fin 512) :
    val_main_v50 (F := Ideal) x0 x1 x19 x20 (ix2 r j) = expArg x0 x1 x19 x20 r j := by
  rw [val_main_v50_apply, val_main_v47_apply, val_main_v44_apply, val_main_v46_apply, val_main_v49_apply,
    val_main_v48_apply]
  simp only [val_main_v43_apply, val_main_v41_apply, val_main_v45_apply, val_main_v42_apply, Ideal.addf_def,
    lidx44, ridx44, lidx46, ridx46, bidx49]
  rfl

/-- The new hidden state at `(r, j)`. -/
theorem hidden_apply (r : Fin 16384) (j : Fin 512) :
    val_main_v55 (F := Ideal) x0 x1 x2 x3 x4 x5 x6 x7 x8 x9 x10 x11 x12 x13 x14 x15 x16 x17 x18 x19 x20 (ix2 r j) = hiddenAt x0 x1 x2 (val_main_v0 (F := Ideal) x3 x7 x11 x15) (val_main_v2 (F := Ideal) x5 x9 x13 x17) (val_main_v1 (F := Ideal) x4 x8 x12 x16) (val_main_v3 (F := Ideal) x6 x10 x14 x18) x19 x20 r j := by
  rw [val_main_v55_apply, val_main_v54_apply, val_main_v52_apply, val_main_v51_apply, val_main_v53_apply,
    sigO_apply, cell_apply, expArg_apply]
  rfl

/-! ### The two results as arrays -/

/-- The reference's second result is the new cell state. -/
theorem cell_eq :
    val_main_v40 (F := Ideal) x0 x1 x2 x3 x4 x5 x6 x7 x8 x9 x10 x11 x12 x13 x14 x15 x16 x17 x18
      = cellOut x0 x1 x2 (val_main_v0 (F := Ideal) x3 x7 x11 x15) (val_main_v2 (F := Ideal) x5 x9 x13 x17)
          (val_main_v1 (F := Ideal) x4 x8 x12 x16) (val_main_v3 (F := Ideal) x6 x10 x14 x18) := by
  funext i
  obtain ⟨r, j, rfl⟩ : ∃ (r : Fin 16384) (j : Fin 512), i = ix2 r j := ⟨i 0, i 1, eq_ix2 i⟩
  rw [cellOut_ix2]
  exact cell_apply x0 x1 x2 x3 x5 x7 x9 x11 x13 x15 x17 x4 x6 x8 x10 x12 x14 x16 x18 r j

/-- The reference's first result is the new hidden state. -/
theorem hidden_eq :
    val_main_v55 (F := Ideal) x0 x1 x2 x3 x4 x5 x6 x7 x8 x9 x10 x11 x12 x13 x14 x15 x16 x17 x18 x19 x20
      = hiddenOut x0 x1 x2 (val_main_v0 (F := Ideal) x3 x7 x11 x15) (val_main_v2 (F := Ideal) x5 x9 x13 x17)
          (val_main_v1 (F := Ideal) x4 x8 x12 x16) (val_main_v3 (F := Ideal) x6 x10 x14 x18) x19 x20 := by
  funext i
  obtain ⟨r, j, rfl⟩ : ∃ (r : Fin 16384) (j : Fin 512), i = ix2 r j := ⟨i 0, i 1, eq_ix2 i⟩
  rw [hiddenOut_ix2]
  exact hidden_apply x0 x1 x2 x3 x5 x7 x9 x11 x13 x15 x17 x4 x6 x8 x10 x12 x14 x16 x18 x19 x20 r j

end Cert.ReferenceIdeal.RefValue

end
-- ==== Proof.lean ====
/-
  Both programs compute one step of a gated recurrent cell with an exponential output gate, on a batch of 16384 rows
  and 512 hidden units.

  The kernel's program stacks the four gates' weights and biases on the host, narrows the transposed weights to
  bf16, and launches one kernel over sixteen batch tiles; on a tile it forms the four gates' pre-activations by two
  matrix products into an f32 accumulator, the new cell state  c' = σ(g_f)·c + σ(g_i)·tanh(g_c),  and the new hidden
  state  h' = (σ(g_o)·tanh(c'))·exp(tanh(e)),  e the exponential gate's affine layer on [x, h]. The reference does the
  same with whole-batch matrix products in f32 and the sigmoid spelt out as 1/(1 + exp(−g)).

  Over the extended reals narrowing a float is the identity, a matrix product into a zero accumulator is the plain sum
  over the contracted axis, and the sigmoid operation is by definition 1/(1 + exp(−g)). The kernel adds the four terms
  of a pre-activation left to right where the reference adds two and two: addition on the extended reals is
  associative. So both results are the same functions of the arguments (`Proof/Spec.lean`), with no use of the
  inputs' finiteness: the kernel's by reading its sixteen written blocks off its run (`Proof/IdealValue.lean`,
  `Proof/TileValue.lean`), the reference's by reading its run one operation at a time (`Proof/RefValue.lean`).
  The two stacked weight arrays and the two stacked bias arrays are built by the same concatenations in both programs
  and are never opened.

  The frames: each kernel program's run ends, faults nowhere and leaves the arguments as given
  (`Proof/IdealRun.lean`, `Proof/WordRun.lean`: the same proof at either float instance); the reference's frame is
  its run with the results dropped. The idealization rewrote nothing, so `preserves` is trivial.
-/
import proofs.«140445_j76390288327651_1_alg».proof.Defs
import proofs.«140445_j76390288327651_1_alg».proof.Proof.Gen.Kernel
import proofs.«140445_j76390288327651_1_alg».proof.Proof.Gen.KernelIdeal
import proofs.«140445_j76390288327651_1_alg».proof.Proof.Gen.ReferenceIdeal
import proofs.«140445_j76390288327651_1_alg».proof.Proof.Gen.ReferenceIdeal.Run
import proofs.«140445_j76390288327651_1_alg».proof.Proof.Gen.ReferenceIdeal.Read
import proofs.«140445_j76390288327651_1_alg».proof.Proof.Gen.Pre_finite_inputs
import proofs.«140445_j76390288327651_1_alg».proof.Proof.WordRun
import proofs.«140445_j76390288327651_1_alg».proof.Proof.IdealValue
import proofs.«140445_j76390288327651_1_alg».proof.Proof.RefValue
import Idealize.ShloMosaic.Adequacy
import Idealize.ShloMosaic.Init

noncomputable section

namespace Cert.Proof

open Idealize.ShloMosaic Idealize.SL.Sem

/-- The word-level kernel's program runs to the end and leaves its arguments unchanged. -/
theorem frame_k : Cert.frame_Kernel := fun m ρ _ => Cert.Kernel.Hand.frame m ρ

/-- So does the idealized kernel's program. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization applied no rewrite. -/
theorem preserves : Cert.preserves_Kernel_KernelIdeal := trivial

/-- From memories agreeing on the arguments, the idealized kernel's two result arrays are the specification's hidden
    and cell state of its arguments, and the reference's two results are the specification's of its own: the same
    arrays, once the arguments' agreement is rewritten. -/
theorem algebraic : Cert.algebraic_KernelIdeal_ReferenceIdeal := by
  intro m ρ m' ρ' _ hagree
  refine ⟨fun c => Cert.KernelIdeal.HandValue.hiddenArr m c, fun c => Cert.KernelIdeal.HandValue.cellArr m c,
    Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19, h20⟩ := hagree c
    rw [Cert.ReferenceIdeal.Read.val_main_v55_eq, Cert.ReferenceIdeal.RefValue.hidden_eq]
    simp only [h0, h1, h2, h3, h4, h5, h6, h7, h8, h9, h10, h11, h12, h13, h14, h15, h16, h17, h18, h19, h20]
    rfl
  · obtain ⟨h0, h1, h2, h3, h4, h5, h6, h7, h8, h9, h10, h11, h12, h13, h14, h15, h16, h17, h18, -, -⟩ := hagree c
    rw [Cert.ReferenceIdeal.Read.val_main_v40_eq, Cert.ReferenceIdeal.RefValue.cell_eq]
    simp only [h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
